-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S2x6400000 : Shape := ⟨2, ![2, 6400000]⟩
abbrev S100000 : Shape := ⟨1, ![100000]⟩
abbrev S4x64 : Shape := ⟨2, ![4, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S4x64 : S_.BroadcastsInDim S4x64 (![] : Fin 0 → Fin S4x64.rank)
  reducesTo_S4x64_S_d0_1 : S4x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S64 .f32) (main_arg7 : FVec F S64x128 .f32) (main_arg8 : FVec F S128 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg7
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x4 .f32) (main_arg1 : IVec S2x6400000 32) (main_arg2 : IVec S100000 32) (main_arg3 : FVec F S4x64 .f32) (main_arg4 : FVec F S64 .f32) (main_arg5 : FVec F S64x64 .f32) (main_arg6 : FVec F S64 .f32) (main_arg7 : FVec F S64x128 .f32) (main_arg8 : FVec F S128 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S4x64 .f32 := Host.absf main_arg3
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  let main_c_1 : IVec S_ 1 := constantI S_ 1 1#1
  let main_v7 : IVec S_ 1 := (fun x v => Host.reduce IntOp.andi x v reducesTo_S4x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x4 : Shape := ⟨2, ![100000, 4]⟩
abbrev S2x6400000 : Shape := ⟨2, ![2, 6400000]⟩
abbrev S100000 : Shape := ⟨1, ![100000]⟩
abbrev S4x64 : Shape := ⟨2, ![4, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S6400000x4 : Shape := ⟨2, ![6400000, 4]⟩
abbrev S100000x1 : Shape := ⟨2, ![100000, 1]⟩
abbrev S512 : Shape := ⟨1, ![512]⟩
abbrev S512x1 : Shape := ⟨2, ![512, 1]⟩
abbrev S512x128 : Shape := ⟨2, ![512, 128]⟩
abbrev S5000x4 : Shape := ⟨2, ![5000, 4]⟩
abbrev S5000x1 : Shape := ⟨2, ![5000, 1]⟩
abbrev S512x64 : Shape := ⟨2, ![512, 64]⟩
abbrev S1000x4 : Shape := ⟨2, ![1000, 4]⟩
abbrev S1000x1 : Shape := ⟨2, ![1000, 1]⟩
abbrev S1000x64 : Shape := ⟨2, ![1000, 64]⟩
abbrev S1x64 : Shape := ⟨2, ![1, 64]⟩
abbrev S1000x512 : Shape := ⟨2, ![1000, 512]⟩
abbrev S1x128 : Shape := ⟨2, ![1, 128]⟩

abbrev nBuf : Space → Nat
  | .hbm => 39
  | .vmem => 13
  | .smem => 0
  | _ => 0

abbrev bufTy : (tb : Table) → Fin (tcTables nBuf tb) → BufTy
  | .hbm, ⟨0, _⟩ => ⟨S100000x4, .f32⟩
  | .hbm, ⟨1, _⟩ => ⟨S2x6400000, .i32⟩
  | .hbm, ⟨2, _⟩ => ⟨S100000, .i32⟩
  | .hbm, ⟨3, _⟩ => ⟨S4x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x128, .f32⟩
  | .hbm, ⟨8, _⟩ => ⟨S128, .f32⟩
  | .hbm, ⟨9, _⟩ => ⟨S1x6400000, .i32⟩
  | .hbm, ⟨10, _⟩ => ⟨S6400000, .i32⟩
  | .hbm, ⟨11, _⟩ => ⟨S1x6400000, .i32⟩
  | .hbm, ⟨12, _⟩ => ⟨S6400000, .i32⟩
  | .hbm, ⟨13, _⟩ => ⟨S_, .i32⟩
  | .hbm, ⟨14, _⟩ => ⟨S6400000, .i32⟩
  | .hbm, ⟨15, _⟩ => ⟨S6400000, .i1⟩
  | .hbm, ⟨16, _⟩ => ⟨S_, .i32⟩
  | .hbm, ⟨17, _⟩ => ⟨S6400000, .i32⟩
  | .hbm, ⟨18, _⟩ => ⟨S6400000, .i32⟩
  | .hbm, ⟨19, _⟩ => ⟨S6400000, .i32⟩
  | .hbm, ⟨20, _⟩ => ⟨S6400000x1, .i32⟩
  | .hbm, ⟨21, _⟩ => ⟨S6400000x4, .f32⟩
  | .hbm, ⟨22, _⟩ => ⟨S_, .f32⟩
  | .hbm, ⟨23, _⟩ => ⟨S100000x4, .f32⟩
  | .hbm, ⟨24, _⟩ => ⟨S6400000x1, .i32⟩
  | .hbm, ⟨25, _⟩ => ⟨S100000x4, .f32⟩
  | .hbm, ⟨26, _⟩ => ⟨S100000x4, .f32⟩
  | .hbm, ⟨27, _⟩ => ⟨S100000x1, .i32⟩
  | .hbm, ⟨28, _⟩ => ⟨S_, .f32⟩
  | .hbm, ⟨29, _⟩ => ⟨S100000, .f32⟩
  | .hbm, ⟨30, _⟩ => ⟨S_, .f32⟩
  | .hbm, ⟨31, _⟩ => ⟨S512, .f32⟩
  | .hbm, ⟨32, _⟩ => ⟨S100000x1, .i32⟩
  | .hbm, ⟨33, _⟩ => ⟨S512, .f32⟩
  | .hbm, ⟨34, _⟩ => ⟨S512x1, .f32⟩
  | .hbm, ⟨35, _⟩ => ⟨S4x64, .bf16⟩
  | .hbm, ⟨36, _⟩ => ⟨S64x64, .bf16⟩
  | .hbm, ⟨37, _⟩ => ⟨S64x128, .bf16⟩
  | .hbm, ⟨38, _⟩ => ⟨S512x128, .f32⟩
  | .local _ .vmem, ⟨0, _⟩ => ⟨S5000x4, .f32⟩
  | .local _ .vmem, ⟨1, _⟩ => ⟨S5000x4, .f32⟩
  | .local _ .vmem, ⟨2, _⟩ => ⟨S5000x1, .i32⟩
  | .local _ .vmem, ⟨3, _⟩ => ⟨S5000x1, .i32⟩
  | .local _ .vmem, ⟨4, _⟩ => ⟨S512x1, .f32⟩
  | .local _ .vmem, ⟨5, _⟩ => ⟨S4x64, .bf16⟩
  | .local _ .vmem, ⟨6, _⟩ => ⟨S64, .f32⟩
  | .local _ .vmem, ⟨7, _⟩ => ⟨S64x64, .bf16⟩
  | .local _ .vmem, ⟨8, _⟩ => ⟨S64, .f32⟩
  | .local _ .vmem, ⟨9, _⟩ => ⟨S64x128, .bf16⟩
  | .local _ .vmem, ⟨10, _⟩ => ⟨S128, .f32⟩
  | .local _ .vmem, ⟨11, _⟩ => ⟨S512x128, .f32⟩
  | .local _ .vmem, ⟨12, _⟩ => ⟨S512x64, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11

abbrev nD : Nat := 1
abbrev τ : Topo := Topo.v7x

variable {F : FTy → Type} [FloatOps F]

abbrev grid0 : Pipeline.Grid := ⟨1, ![20], ![false]⟩

def k0_mult1 : BitVec 32 :=
  let c0_i32_1 : BitVec 32 := 0#32
  let c1000_i32 : BitVec 32 := 1000#32
  let v3 : BitVec 32 := Scalar.muli c0_i32_1 c1000_i32
  v3
def k0_off1 (c0_i32_1 : BitVec 32) : Fin 2 → Nat :=
  let c1000_i32 : BitVec 32 := 1000#32
  let v3 : BitVec 32 := Scalar.muli c0_i32_1 c1000_i32
  let v4 : BitVec 32 := v3
  let v5 : Index := Scalar.indexCast v4
  let c0 : Index := 0#32
  ![v5.toNat, 0]
def k0_off2 (c0_i32_1 : BitVec 32) : Fin 2 → Nat :=
  let c1000_i32 : BitVec 32 := 1000#32
  let v3 : BitVec 32 := Scalar.muli c0_i32_1 c1000_i32
  let v4 : BitVec 32 := v3
  let v8 : Index := Scalar.indexCast v4
  let c0_2 : Index := 0#32
  ![v8.toNat, 0]
def k0_mult2 : BitVec 32 :=
  let c1_i32 : BitVec 32 := 1#32
  let c1000_i32_16 : BitVec 32 := 1000#32
  let v42 : BitVec 32 := Scalar.muli c1_i32 c1000_i32_16
  v42
def k0_mult3 : BitVec 32 :=
  let c2_i32 : BitVec 32 := 2#32
  let c1000_i32_33 : BitVec 32 := 1000#32
  let v81 : BitVec 32 := Scalar.muli c2_i32 c1000_i32_33
  v81
def k0_mult4 : BitVec 32 :=
  let c3_i32 : BitVec 32 := 3#32
  let c1000_i32_50 : BitVec 32 := 1000#32
  let v120 : BitVec 32 := Scalar.muli c3_i32 c1000_i32_50
  v120
def k0_mult5 : BitVec 32 :=
  let c4_i32 : BitVec 32 := 4#32
  let c1000_i32_67 : BitVec 32 := 1000#32
  let v159 : BitVec 32 := Scalar.muli c4_i32 c1000_i32_67
  v159
def k0_cond2 (i : grid0.Coords) : BitVec 1 :=
  let arg0 : BitVec 32 := BitVec.ofNat 32 (i 0).val
  let c19_i32 : BitVec 32 := 19#32
  let v198 : BitVec 1 := Scalar.cmpi .eq arg0 c19_i32
  let v199 : BitVec 32 := Scalar.extui v198
  let c0_i32_84 : BitVec 32 := 0#32
  let v200 : BitVec 1 := Scalar.cmpi .ne v199 c0_i32_84
  v200

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S100000x4 : S_.BroadcastsInDim S100000x4 (![] : Fin 0 → Fin S100000x4.rank)
  shapeCasts_S100000_S100000x1 : S100000.ShapeCasts S100000x1
  bcast_S_S100000 : S_.BroadcastsInDim S100000 (![] : Fin 0 → Fin S100000.rank)
  bcast_S_S512 : S_.BroadcastsInDim S512 (![] : Fin 0 → Fin S512.rank)
  bcast_S100000_S100000x1_0 : S100000.BroadcastsInDim S100000x1 (![0] : Fin 1 → Fin S100000x1.rank)
  shapeCasts_S512_S512x1 : S512.ShapeCasts S512x1
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  shapeCasts_S512x64_S512x64 : S512x64.ShapeCasts S512x64
  h_S1000x4 : 0 < S1000x4.numel
  shapeCasts_S1000x4_S1000x4 : S1000x4.ShapeCasts S1000x4
  h_S1000x1 : 0 < S1000x1.numel
  shapeCasts_S1000x1_S1000x1 : S1000x1.ShapeCasts S1000x1
  inb_S4x64_S4x64_0_0 : ∀ a, (![0, 0] : Fin 2 → Nat) a + S4x64.size a ≤ S4x64.size a
  h_S4x64 : 0 < S4x64.numel
  shapeCasts_S4x64_S4x64 : S4x64.ShapeCasts S4x64
  inb_S64_S64_0 : ∀ a, (![0] : Fin 1 → Nat) a + S64.size a ≤ S64.size a
  h_S64 : 0 < S64.numel
  shapeCasts_S64_S1x64 : S64.ShapeCasts S1x64
  broadcasts_S1x64_S1000x64 : S1x64.Broadcasts S1000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  iota_S1000x512_d1_w32 : S1000x512.Iotas .tc 32 [1]
  broadcasts_S1000x1_S1000x512 : S1000x1.Broadcasts S1000x512
  natLt_1_32 : 1 < 32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x64 : S512x1.Broadcasts S512x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  gather_S100000x4_S6400000x1_S6400000x4_1_0_n_n_0_1_14_wf : GatherDims.WF S100000x4 S6400000x1 S6400000x4 [1] [0] [] [0] [] 1 ![1, 4]
  scatter_S100000x4_S6400000x1_S6400000x4_1_0_0_1_wf : ScatterDims.WF S100000x4 S6400000x1 S6400000x4 [1] [0] [0] 1
  scatter_S512_S100000x1_S100000_n_0_0_1_wf : ScatterDims.WF S512 S100000x1 S100000 [] [0] [0] 1
  dot_S1000x4_S4x64_S1000x64_1_0_0_1_n_n_wf : DotDims.WF S1000x4 S4x64 S1000x64 [1] [0] [0] [1] [] []
  dot_S1000x64_S64x64_S1000x64_1_0_0_1_n_n_wf : DotDims.WF S1000x64 S64x64 S1000x64 [1] [0] [0] [1] [] []
  dot_S1000x512_S1000x64_S512x64_0_0_1_1_n_n_wf : DotDims.WF S1000x512 S1000x64 S512x64 [0] [0] [1] [1] [] []
  dot_S512x64_S64x128_S512x128_1_0_0_1_n_n_wf : DotDims.WF S512x64 S64x128 S512x128 [1] [0] [0] [1] [] []
  hrank0 : 0 < grid0.rank
  k0_mult1_dvd : 1000 ∣ k0_mult1.toNat
  k0_off1_inb : ∀ (r : Fin 5), ∀ a, (k0_off1 (BitVec.ofNat 32 r.val)) a + S1000x4.size a ≤ S5000x4.size a
  k0_off2_inb : ∀ (r : Fin 5), ∀ a, (k0_off2 (BitVec.ofNat 32 r.val)) a + S1000x1.size a ≤ S5000x1.size a
  k0_mult2_dvd : 1000 ∣ k0_mult2.toNat
  k0_mult3_dvd : 1000 ∣ k0_mult3.toNat
  k0_mult4_dvd : 1000 ∣ k0_mult4.toNat
  k0_mult5_dvd : 1000 ∣ k0_mult5.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x4.size a ≤ S100000x4.size a
  hwx0_0 : ∀ i : grid0.Coords, EltTy.bits .f32 = 32 ∨ (Rect.block (s := S100000x4) S5000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .i32 = 32 ∨ (Rect.block (s := S100000x1) S5000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S512x1.size a
  hwx0_2 : ∀ i : grid0.Coords, EltTy.bits .f32 = 32 ∨ (Rect.block (s := S512x1) S512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x64.size a ≤ S4x64.size a
  hwx0_3 : ∀ i : grid0.Coords, EltTy.bits .bf16 = 32 ∨ (Rect.block (s := S4x64) S4x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .bf16 = 32 ∨ (Rect.block (s := S64x64) S64x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x128.size a ≤ S64x128.size a
  hwx0_7 : ∀ i : grid0.Coords, EltTy.bits .bf16 = 32 ∨ (Rect.block (s := S64x128) S64x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x128.size a ≤ S512x128.size a
  hwx0_9 : ∀ i : grid0.Coords, EltTy.bits .f32 = 32 ∨ (Rect.block (s := S512x128) S512x128.size (cc0_transform_9 i) (hinb0_9 i)).WholeWords (EltTy.packing .f32)

variable [Facts₀]

def gather_S100000x4_S6400000x1_S6400000x4_1_0_n_n_0_1_14 : GatherDims S100000x4 S6400000x1 S6400000x4 where
  offsetDims := [1]
  collapsedSliceDims := [0]
  operandBatchingDims := []
  startIndicesBatchingDims := []
  startIndexMap := [0]
  indexVectorDim := 1
  sliceSizes := ![1, 4]
  wf := gather_S100000x4_S6400000x1_S6400000x4_1_0_n_n_0_1_14_wf
def scatter_S100000x4_S6400000x1_S6400000x4_1_0_0_1 : ScatterDims S100000x4 S6400000x1 S6400000x4 where
  updateWindowDims := [1]
  insertedWindowDims := [0]
  scatterDimsToOperandDims := [0]
  indexVectorDim := 1
  wf := scatter_S100000x4_S6400000x1_S6400000x4_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S1000x4_S4x64_S1000x64_1_0_0_1_n_n : DotDims S1000x4 S4x64 S1000x64 where
  lhsContracting := [1]
  rhsContracting := [0]
  lhsNonContracting := [0]
  rhsNonContracting := [1]
  lhsBatch := []
  rhsBatch := []
  wf := dot_S1000x4_S4x64_S1000x64_1_0_0_1_n_n_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf
def dot_S1000x512_S1000x64_S512x64_0_0_1_1_n_n : DotDims S1000x512 S1000x64 S512x64 where
  lhsContracting := [0]
  rhsContracting := [0]
  lhsNonContracting := [1]
  rhsNonContracting := [1]
  lhsBatch := []
  rhsBatch := []
  wf := dot_S1000x512_S1000x64_S512x64_0_0_1_1_n_n_wf
def dot_S512x64_S64x128_S512x128_1_0_0_1_n_n : DotDims S512x64 S64x128 S512x128 where
  lhsContracting := [1]
  rhsContracting := [0]
  lhsNonContracting := [0]
  rhsNonContracting := [1]
  lhsBatch := []
  rhsBatch := []
  wf := dot_S512x64_S64x128_S512x128_1_0_0_1_n_n_wf

abbrev win0_0 : Pipeline.Window sig grid0 :=
  Pipeline.Window.ofSpec (Memref.whole main_v14) S5000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S512x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S4x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S64x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v24) S512x128.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | ⟨_ + 10, h⟩ => absurd h (Nat.not_lt.2 (Nat.le_add_left _ _))

class Facts : Prop extends Facts₀ where

variable [Facts]
-- ==== ReferenceIdeal.lean ====
abbrev S100000x4 : Shape := ⟨2, ![100000, 4]⟩
abbrev S2x6400000 : Shape := ⟨2, ![2, 6400000]⟩
abbrev S100000 : Shape := ⟨1, ![100000]⟩
abbrev S4x64 : Shape := ⟨2, ![4, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S6400000x4 : Shape := ⟨2, ![6400000, 4]⟩
abbrev S100000x64 : Shape := ⟨2, ![100000, 64]⟩
abbrev S1x64 : Shape := ⟨2, ![1, 64]⟩
abbrev S512x64 : Shape := ⟨2, ![512, 64]⟩
abbrev S100000x1 : Shape := ⟨2, ![100000, 1]⟩
abbrev S512 : Shape := ⟨1, ![512]⟩
abbrev S512x1 : Shape := ⟨2, ![512, 1]⟩
abbrev S512x128 : Shape := ⟨2, ![512, 128]⟩
abbrev S1x128 : Shape := ⟨2, ![1, 128]⟩

abbrev nBuf : Space → Nat
  | .hbm => 58
  | .vmem => 0
  | .smem => 0
  | _ => 0

abbrev bufTy : (tb : Table) → Fin (tcTables nBuf tb) → BufTy
  | .hbm, ⟨0, _⟩ => ⟨S100000x4, .f32⟩
  | .hbm, ⟨1, _⟩ => ⟨S2x6400000, .i32⟩
  | .hbm, ⟨2, _⟩ => ⟨S100000, .i32⟩
  | .hbm, ⟨3, _⟩ => ⟨S4x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x128, .f32⟩
  | .hbm, ⟨8, _⟩ => ⟨S128, .f32⟩
  | .hbm, ⟨9, _⟩ => ⟨S1x6400000, .i32⟩
  | .hbm, ⟨10, _⟩ => ⟨S6400000, .i32⟩
  | .hbm, ⟨11, _⟩ => ⟨S1x6400000, .i32⟩
  | .hbm, ⟨12, _⟩ => ⟨S6400000, .i32⟩
  | .hbm, ⟨13, _⟩ => ⟨S_, .i32⟩
  | .hbm, ⟨14, _⟩ => ⟨S6400000, .i32⟩
  | .hbm, ⟨15, _⟩ => ⟨S6400000, .i1⟩
  | .hbm, ⟨16, _⟩ => ⟨S_, .i32⟩
  | .hbm, ⟨17, _⟩ => ⟨S6400000, .i32⟩
  | .hbm, ⟨18, _⟩ => ⟨S6400000, .i32⟩
  | .hbm, ⟨19, _⟩ => ⟨S6400000, .i32⟩
  | .hbm, ⟨20, _⟩ => ⟨S6400000x1, .i32⟩
  | .hbm, ⟨21, _⟩ => ⟨S6400000x4, .f32⟩
  | .hbm, ⟨22, _⟩ => ⟨S_, .f32⟩
  | .hbm, ⟨23, _⟩ => ⟨S100000x4, .f32⟩
  | .hbm, ⟨24, _⟩ => ⟨S6400000x1, .i32⟩
  | .hbm, ⟨25, _⟩ => ⟨S100000x4, .f32⟩
  | .hbm, ⟨26, _⟩ => ⟨S100000x4, .f32⟩
  | .hbm, ⟨27, _⟩ => ⟨S100000x64, .f32⟩
  | .hbm, ⟨28, _⟩ => ⟨S1x64, .f32⟩
  | .hbm, ⟨29, _⟩ => ⟨S100000x64, .f32⟩
  | .hbm, ⟨30, _⟩ => ⟨S100000x64, .f32⟩
  | .hbm, ⟨31, _⟩ => ⟨S_, .f32⟩
  | .hbm, ⟨32, _⟩ => ⟨S100000x64, .f32⟩
  | .hbm, ⟨33, _⟩ => ⟨S100000x64, .f32⟩
  | .hbm, ⟨34, _⟩ => ⟨S100000x64, .f32⟩
  | .hbm, ⟨35, _⟩ => ⟨S1x64, .f32⟩
  | .hbm, ⟨36, _⟩ => ⟨S100000x64, .f32⟩
  | .hbm, ⟨37, _⟩ => ⟨S100000x64, .f32⟩
  | .hbm, ⟨38, _⟩ => ⟨S_, .f32⟩
  | .hbm, ⟨39, _⟩ => ⟨S512x64, .f32⟩
  | .hbm, ⟨40, _⟩ => ⟨S100000x1, .i32⟩
  | .hbm, ⟨41, _⟩ => ⟨S512x64, .f32⟩
  | .hbm, ⟨42, _⟩ => ⟨S_, .f32⟩
  | .hbm, ⟨43, _⟩ => ⟨S100000, .f32⟩
  | .hbm, ⟨44, _⟩ => ⟨S_, .f32⟩
  | .hbm, ⟨45, _⟩ => ⟨S512, .f32⟩
  | .hbm, ⟨46, _⟩ => ⟨S100000x1, .i32⟩
  | .hbm, ⟨47, _⟩ => ⟨S512, .f32⟩
  | .hbm, ⟨48, _⟩ => ⟨S_, .f32⟩
  | .hbm, ⟨49, _⟩ => ⟨S512, .f32⟩
  | .hbm, ⟨50, _⟩ => ⟨S512, .f32⟩
  | .hbm, ⟨51, _⟩ => ⟨S512x1, .f32⟩
  | .hbm, ⟨52, _⟩ => ⟨S512x64, .f32⟩
  | .hbm, ⟨53, _⟩ => ⟨S512x64, .f32⟩
  | .hbm, ⟨54, _⟩ => ⟨S512x128, .f32⟩
  | .hbm, ⟨55, _⟩ => ⟨S1x128, .f32⟩
  | .hbm, ⟨56, _⟩ => ⟨S512x128, .f32⟩
  | .hbm, ⟨57, _⟩ => ⟨S512x128, .f32⟩
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_cst : Ref sig .tc := ⟨.hbm, 31, rfl⟩
abbrev main_call0_v0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_1 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_2 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S100000x4 : S_.BroadcastsInDim S100000x4 (![] : Fin 0 → Fin S100000x4.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S_S512x64 : S_.BroadcastsInDim S512x64 (![] : Fin 0 → Fin S512x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  gather_S100000x4_S6400000x1_S6400000x4_1_0_n_n_0_1_14_wf : GatherDims.WF S100000x4 S6400000x1 S6400000x4 [1] [0] [] [0] [] 1 ![1, 4]
  scatter_S100000x4_S6400000x1_S6400000x4_1_0_0_1_wf : ScatterDims.WF S100000x4 S6400000x1 S6400000x4 [1] [0] [0] 1
  dot_S100000x4_S4x64_S100000x64_1_0_0_1_n_n_wf : DotDims.WF S100000x4 S4x64 S100000x64 [1] [0] [0] [1] [] []
  dot_S100000x64_S64x64_S100000x64_1_0_0_1_n_n_wf : DotDims.WF S100000x64 S64x64 S100000x64 [1] [0] [0] [1] [] []
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x64_S64x128_S512x128_1_0_0_1_n_n_wf : DotDims.WF S512x64 S64x128 S512x128 [1] [0] [0] [1] [] []

variable [Facts₀]

def gather_S100000x4_S6400000x1_S6400000x4_1_0_n_n_0_1_14 : GatherDims S100000x4 S6400000x1 S6400000x4 where
  offsetDims := [1]
  collapsedSliceDims := [0]
  operandBatchingDims := []
  startIndicesBatchingDims := []
  startIndexMap := [0]
  indexVectorDim := 1
  sliceSizes := ![1, 4]
  wf := gather_S100000x4_S6400000x1_S6400000x4_1_0_n_n_0_1_14_wf
def scatter_S100000x4_S6400000x1_S6400000x4_1_0_0_1 : ScatterDims S100000x4 S6400000x1 S6400000x4 where
  updateWindowDims := [1]
  insertedWindowDims := [0]
  scatterDimsToOperandDims := [0]
  indexVectorDim := 1
  wf := scatter_S100000x4_S6400000x1_S6400000x4_1_0_0_1_wf
def dot_S100000x4_S4x64_S100000x64_1_0_0_1_n_n : DotDims S100000x4 S4x64 S100000x64 where
  lhsContracting := [1]
  rhsContracting := [0]
  lhsNonContracting := [0]
  rhsNonContracting := [1]
  lhsBatch := []
  rhsBatch := []
  wf := dot_S100000x4_S4x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x128_S512x128_1_0_0_1_n_n : DotDims S512x64 S64x128 S512x128 where
  lhsContracting := [1]
  rhsContracting := [0]
  lhsNonContracting := [0]
  rhsNonContracting := [1]
  lhsBatch := []
  rhsBatch := []
  wf := dot_S512x64_S64x128_S512x128_1_0_0_1_n_n_wf

class Facts : Prop extends Facts₀ where

variable [Facts]
-- ==== Proof.LibReadCov.lean ====
/-
  A general lemma about covered loads, for any kernel whose body stores a whole staging or scratch buffer more than
  once in one run (an accumulator updated in several load-add-store rounds, a reset followed by updates).
-/
import Idealize.ShloMosaic.Lib.Pipeline.Value

namespace Cert.LibReadCov

open Idealize.ShloMosaic

/-- A load through the whole buffer (the unit rectangle at zero offsets of the buffer's own sizes) that follows a
    list of stores of which the LAST was through the whole buffer reads that last store's payload, whatever the
    earlier stores were. (The library's `View.readCov_unit_zero` is the case of exactly one store; a run that has
    stored the buffer k times hands a later load the list of all k pieces, last first.) -/
theorem readCov_cons_unit_zero {Val : EltTy → Type} [∀ e, Nonempty (Val e)] {sig : RefSig} {κ : Kind} {sp : Space}
    {S : Shape} {e : EltTy} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

end Cert.LibReadCov
-- ==== Proof.Pieces.lean ====
/-
  What the body leaves behind at a grid point, as values.

  The body walks the point's block of 5000 nodes in five chunks of 1000. For each chunk it loads the chunk's feature
  rows and graph words, computes the chunk's contribution and adds it to the pooled-sum buffer (512 × 64), which it
  loads and stores whole each time. At the first point the buffer is first stored with zeros; at the last point the
  finished buffer is divided by the counts and pushed through the last layer into the output block.

  So, whatever the buffer held before (`acc`), after the point it holds the five chunk steps applied in order to
  `acc` (`sweep`); at the first point `acc` is the zero block; at the last point the output block is the head
  layer of that. The three statements below say this of the pieces the run of each case found: every store is through
  the whole buffer, so the latest one wins, and a load that follows stores reads the latest store's payload.
-/
import proofs.«424003_j8297876816594_3_alg».proof.Proof.Gen.KernelIdeal.Frame
import proofs.«424003_j8297876816594_3_alg».proof.Proof.LibReadCov
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

/-- Rows `off … off + 999` of a block of 5000 feature rows. -/
abbrev featRows (x0 : Vec F S5000x4 .f32) (off : Nat)
    (h : ∀ a, (![off, 0] : Fin 2 → Nat) a + (![1000, 4] : Fin 2 → Nat) a ≤ S5000x4.size a) : Vec F S1000x4 .f32 :=
  View.ld x0 (Rect.unit (s := S5000x4) ![off, 0] ![1000, 4] h)

/-- Rows `off … off + 999` of a block of 5000 graph words. -/
abbrev wordRows (x1 : Vec F S5000x1 .i32) (off : Nat)
    (h : ∀ a, (![off, 0] : Fin 2 → Nat) a + (![1000, 1] : Fin 2 → Nat) a ≤ S5000x1.size a) : Vec F S1000x1 .i32 :=
  View.ld x1 (Rect.unit (s := S5000x1) ![off, 0] ![1000, 1] h)

/-- The five chunk steps of one grid point, in order, applied to what the pooled-sum buffer held. -/
def sweep (x0 : Vec F S5000x4 .f32) (x1 : Vec F S5000x1 .i32) (x3 : Vec F S4x64 .bf16) (x4 : Vec F S64 .f32)
    (x5 : Vec F S64x64 .bf16) (x6 : Vec F S64 .f32) (acc : Vec F S512x64 .f32) : Vec F S512x64 .f32 :=
  k0_pay9 (featRows x0 4000 (by decide)) (wordRows x1 4000 (by decide)) x3 x4 x5 x6
    (k0_pay8 (featRows x0 3000 (by decide)) (wordRows x1 3000 (by decide)) x3 x4 x5 x6
      (k0_pay7 (featRows x0 2000 (by decide)) (wordRows x1 2000 (by decide)) x3 x4 x5 x6
        (k0_pay6
          (k0_pay5 (featRows x0 1000 (by decide)) (wordRows x1 1000 (by decide)) x3 x4 x5 x6
            (k0_pay4
              (k0_pay3 (featRows x0 0 (by decide)) (wordRows x1 0 (by decide)) x3 x4 x5 x6 acc))))))

/-- A middle point leaves the sweep of what the buffer held. -/
theorem sout_B (c : Dev nD) (i : grid0.Coords) (arg1 : Memref sig .tc .vmem S5000x4 .f32) (harg1 : arg1.IsWhole) (arg2 : Memref sig .tc .vmem S5000x1 .i32) (harg2 : arg2.IsWhole) (arg3 : Memref sig .tc .vmem S512x1 .f32) (harg3 : arg3.IsWhole) (arg4 : Memref sig .tc .vmem S4x64 .bf16) (harg4 : arg4.IsWhole) (arg5 : Memref sig .tc .vmem S64 .f32) (harg5 : arg5.IsWhole) (arg6 : Memref sig .tc .vmem S64x64 .bf16) (harg6 : arg6.IsWhole) (arg7 : Memref sig .tc .vmem S64 .f32) (harg7 : arg7.IsWhole) (arg8 : Memref sig .tc .vmem S64x128 .bf16) (harg8 : arg8.IsWhole) (arg9 : Memref sig .tc .vmem S128 .f32) (harg9 : arg9.IsWhole) (arg10 : Memref sig .tc .vmem S512x128 .f32) (harg10 : arg10.IsWhole) (arg11 : Memref sig .tc .vmem S512x64 .f32) (harg11 : arg11.IsWhole) (hc0 : ¬cond0_0 i) (hc1 : ¬cond0_1 i)
    (x0 : Vec F S5000x4 .f32) (x1 : Vec F S5000x1 .i32) (x2 : Vec F S512x1 .f32) (x3 : Vec F S4x64 .bf16) (x4 : Vec F S64 .f32) (x5 : Vec F S64x64 .bf16) (x6 : Vec F S64 .f32) (x7 : Vec F S64x128 .bf16) (x8 : Vec F S128 .f32) (xs0 : Vec F S512x64 .f32) :
    sout0_B_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0 = sweep x0 x1 x3 x4 x5 x6 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0)]
  unfold kernelRun0_B
  dsimp only
  sl_unfold_words
  rw [View.canon_cons_unit_zero (S := S512x64) hz2]
  simp only [View.readAt_eq_ld, harg1.read_unread, harg2.read_unread, harg3.read_unread, harg4.read_unread, harg5.read_unread, harg6.read_unread, harg7.read_unread, harg8.read_unread, harg9.read_unread, harg10.read_unread, harg11.read_unread,
    View.readCov_unit_zero (S := S512x64) _ hz2, Cert.LibReadCov.readCov_cons_unit_zero (S := S512x64) _ hz2,
    View.ld_unit_zero (S := S4x64) hz2, View.ld_unit_zero (S := S64) hz1, View.ld_unit_zero (S := S64x64) hz2,
    View.ld_unit_zero (S := S512x64) hz2, View.ld_unit_zero (S := S512x1) hz2, View.ld_unit_zero (S := S64x128) hz2,
    View.ld_unit_zero (S := S128) hz1, View.ld_unit_zero (S := S512x128) hz2]
  rfl

/-- The last point leaves the same in the buffer … -/
theorem sout_C (c : Dev nD) (i : grid0.Coords) (arg1 : Memref sig .tc .vmem S5000x4 .f32) (harg1 : arg1.IsWhole) (arg2 : Memref sig .tc .vmem S5000x1 .i32) (harg2 : arg2.IsWhole) (arg3 : Memref sig .tc .vmem S512x1 .f32) (harg3 : arg3.IsWhole) (arg4 : Memref sig .tc .vmem S4x64 .bf16) (harg4 : arg4.IsWhole) (arg5 : Memref sig .tc .vmem S64 .f32) (harg5 : arg5.IsWhole) (arg6 : Memref sig .tc .vmem S64x64 .bf16) (harg6 : arg6.IsWhole) (arg7 : Memref sig .tc .vmem S64 .f32) (harg7 : arg7.IsWhole) (arg8 : Memref sig .tc .vmem S64x128 .bf16) (harg8 : arg8.IsWhole) (arg9 : Memref sig .tc .vmem S128 .f32) (harg9 : arg9.IsWhole) (arg10 : Memref sig .tc .vmem S512x128 .f32) (harg10 : arg10.IsWhole) (arg11 : Memref sig .tc .vmem S512x64 .f32) (harg11 : arg11.IsWhole) (hc0 : ¬cond0_0 i) (hc1 : cond0_1 i)
    (x0 : Vec F S5000x4 .f32) (x1 : Vec F S5000x1 .i32) (x2 : Vec F S512x1 .f32) (x3 : Vec F S4x64 .bf16) (x4 : Vec F S64 .f32) (x5 : Vec F S64x64 .bf16) (x6 : Vec F S64 .f32) (x7 : Vec F S64x128 .bf16) (x8 : Vec F S128 .f32) (xs0 : Vec F S512x64 .f32) :
    sout0_C_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0 = sweep x0 x1 x3 x4 x5 x6 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0)]
  unfold kernelRun0_C
  dsimp only
  sl_unfold_words
  rw [View.canon_cons_unit_zero (S := S512x64) hz2]
  simp only [View.readAt_eq_ld, harg1.read_unread, harg2.read_unread, harg3.read_unread, harg4.read_unread, harg5.read_unread, harg6.read_unread, harg7.read_unread, harg8.read_unread, harg9.read_unread, harg10.read_unread, harg11.read_unread,
    View.readCov_unit_zero (S := S512x64) _ hz2, Cert.LibReadCov.readCov_cons_unit_zero (S := S512x64) _ hz2,
    View.ld_unit_zero (S := S4x64) hz2, View.ld_unit_zero (S := S64) hz1, View.ld_unit_zero (S := S64x64) hz2,
    View.ld_unit_zero (S := S512x64) hz2, View.ld_unit_zero (S := S512x1) hz2, View.ld_unit_zero (S := S64x128) hz2,
    View.ld_unit_zero (S := S128) hz1, View.ld_unit_zero (S := S512x128) hz2]
  rfl

/-- … and in the output block the head layer of it: counts `x2`, last-layer weights `x7` and bias `x8`. -/
theorem out_C (c : Dev nD) (i : grid0.Coords) (arg1 : Memref sig .tc .vmem S5000x4 .f32) (harg1 : arg1.IsWhole) (arg2 : Memref sig .tc .vmem S5000x1 .i32) (harg2 : arg2.IsWhole) (arg3 : Memref sig .tc .vmem S512x1 .f32) (harg3 : arg3.IsWhole) (arg4 : Memref sig .tc .vmem S4x64 .bf16) (harg4 : arg4.IsWhole) (arg5 : Memref sig .tc .vmem S64 .f32) (harg5 : arg5.IsWhole) (arg6 : Memref sig .tc .vmem S64x64 .bf16) (harg6 : arg6.IsWhole) (arg7 : Memref sig .tc .vmem S64 .f32) (harg7 : arg7.IsWhole) (arg8 : Memref sig .tc .vmem S64x128 .bf16) (harg8 : arg8.IsWhole) (arg9 : Memref sig .tc .vmem S128 .f32) (harg9 : arg9.IsWhole) (arg10 : Memref sig .tc .vmem S512x128 .f32) (harg10 : arg10.IsWhole) (arg11 : Memref sig .tc .vmem S512x64 .f32) (harg11 : arg11.IsWhole) (hc0 : ¬cond0_0 i) (hc1 : cond0_1 i)
    (x0 : Vec F S5000x4 .f32) (x1 : Vec F S5000x1 .i32) (x2 : Vec F S512x1 .f32) (x3 : Vec F S4x64 .bf16) (x4 : Vec F S64 .f32) (x5 : Vec F S64x64 .bf16) (x6 : Vec F S64 .f32) (x7 : Vec F S64x128 .bf16) (x8 : Vec F S128 .f32) (xs0 : Vec F S512x64 .f32) :
    out0_C_9 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0 = k0_pay1 x2 (sweep x0 x1 x3 x4 x5 x6 xs0) x7 x8 := by
  unfold out0_C_9
  rw [View.read_writes_eq_canon _ _ _ (cover0_C_9 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0)]
  unfold kernelRun0_C
  dsimp only
  sl_unfold_words
  rw [View.canon_unit_zero (S := S512x128) hz2]
  simp only [View.readAt_eq_ld, harg1.read_unread, harg2.read_unread, harg3.read_unread, harg4.read_unread, harg5.read_unread, harg6.read_unread, harg7.read_unread, harg8.read_unread, harg9.read_unread, harg10.read_unread, harg11.read_unread,
    View.readCov_unit_zero (S := S512x64) _ hz2, Cert.LibReadCov.readCov_cons_unit_zero (S := S512x64) _ hz2,
    View.ld_unit_zero (S := S4x64) hz2, View.ld_unit_zero (S := S64) hz1, View.ld_unit_zero (S := S64x64) hz2,
    View.ld_unit_zero (S := S512x64) hz2, View.ld_unit_zero (S := S512x1) hz2, View.ld_unit_zero (S := S64x128) hz2,
    View.ld_unit_zero (S := S128) hz1, View.ld_unit_zero (S := S512x128) hz2]
  rfl

/-- The first point leaves the sweep of the zero block. -/
theorem sout_A (c : Dev nD) (i : grid0.Coords) (arg1 : Memref sig .tc .vmem S5000x4 .f32) (harg1 : arg1.IsWhole) (arg2 : Memref sig .tc .vmem S5000x1 .i32) (harg2 : arg2.IsWhole) (arg3 : Memref sig .tc .vmem S512x1 .f32) (harg3 : arg3.IsWhole) (arg4 : Memref sig .tc .vmem S4x64 .bf16) (harg4 : arg4.IsWhole) (arg5 : Memref sig .tc .vmem S64 .f32) (harg5 : arg5.IsWhole) (arg6 : Memref sig .tc .vmem S64x64 .bf16) (harg6 : arg6.IsWhole) (arg7 : Memref sig .tc .vmem S64 .f32) (harg7 : arg7.IsWhole) (arg8 : Memref sig .tc .vmem S64x128 .bf16) (harg8 : arg8.IsWhole) (arg9 : Memref sig .tc .vmem S128 .f32) (harg9 : arg9.IsWhole) (arg10 : Memref sig .tc .vmem S512x128 .f32) (harg10 : arg10.IsWhole) (arg11 : Memref sig .tc .vmem S512x64 .f32) (harg11 : arg11.IsWhole) (hc0 : cond0_0 i) (hc1 : ¬cond0_1 i)
    (x0 : Vec F S5000x4 .f32) (x1 : Vec F S5000x1 .i32) (x2 : Vec F S512x1 .f32) (x3 : Vec F S4x64 .bf16) (x4 : Vec F S64 .f32) (x5 : Vec F S64x64 .bf16) (x6 : Vec F S64 .f32) (x7 : Vec F S64x128 .bf16) (x8 : Vec F S128 .f32) :
    sout0_A_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 = sweep x0 x1 x3 x4 x5 x6 (k0_pay2 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8)]
  unfold kernelRun0_A
  dsimp only
  sl_unfold_words
  rw [View.canon_cons_unit_zero (S := S512x64) hz2]
  simp only [View.readAt_eq_ld, harg1.read_unread, harg2.read_unread, harg3.read_unread, harg4.read_unread, harg5.read_unread, harg6.read_unread, harg7.read_unread, harg8.read_unread, harg9.read_unread, harg10.read_unread, harg11.read_unread,
    View.readCov_unit_zero (S := S512x64) _ hz2, Cert.LibReadCov.readCov_cons_unit_zero (S := S512x64) _ hz2,
    View.ld_unit_zero (S := S4x64) hz2, View.ld_unit_zero (S := S64) hz1, View.ld_unit_zero (S := S64x64) hz2,
    View.ld_unit_zero (S := S512x64) hz2, View.ld_unit_zero (S := S512x1) hz2, View.ld_unit_zero (S := S64x128) hz2,
    View.ld_unit_zero (S := S128) hz1, View.ld_unit_zero (S := S512x128) hz2]
  rfl

end Cert.KernelIdeal.Pieces

end
-- ==== Proof.Sums.lean ====
/-
  Splitting a sum over the 100000 nodes: into the 20 blocks of 5000 consecutive nodes, and a block of 5000 into its
  five chunks of 1000 consecutive rows. Both are the bijection (quotient, remainder) between a product of two ranges
  and the range of the product.
-/
import Mathlib.Algebra.BigOperators.Fin
import Mathlib.Logic.Equiv.Fin.Basic
import Mathlib.Algebra.BigOperators.Group.Finset.Basic

namespace Cert.GraphPool

open scoped BigOperators

/-- Row `q` of chunk `c` of a block is the block's row `1000·c + q`. -/
def rowAt (c : Fin 5) (q : Fin 1000) : Fin 5000 := ⟨1000 * c.val + q.val, by have := c.isLt; have := q.isLt; omega⟩

/-- Row `r` of block `s` is node `5000·s + r`; past the twentieth block the number wraps, so that the function is total. -/
def nodeAt (s : Nat) (r : Fin 5000) : Fin 100000 := ⟨(5000 * s + r.val) % 100000, Nat.mod_lt _ (by decide)⟩

theorem nodeAt_val (s : Nat) (hs : s < 20) (r : Fin 5000) : (nodeAt s r).val = 5000 * s + r.val := by
  have := r.isLt
  exact Nat.mod_eq_of_lt (by omega)

/-- A sum over a block is the sum of its five chunks' sums, in order. -/
theorem sum_chunks {M : Type*} [AddCommMonoid M] (f : Fin 5000 → M) :
    ∑ r, f r = ((((∑ q, f (rowAt 0 q)) + ∑ q, f (rowAt 1 q)) + ∑ q, f (rowAt 2 q)) + ∑ q, f (rowAt 3 q)) + ∑ q, f (rowAt 4 q) := by
  have e : ∑ r, f r = ∑ c : Fin 5, ∑ q : Fin 1000, f (rowAt c q) := by
    rw [← Fintype.sum_prod_type']
    refine (Fintype.sum_equiv ((finProdFinEquiv (m := 5) (n := 1000)).trans (finCongr (show 5 * 1000 = 5000 from rfl))) _ _ ?_).symm
    rintro ⟨c, q⟩
    refine congrArg f (Fin.ext ?_)
    simp [rowAt, finProdFinEquiv]
    omega
  rw [e, Fin.sum_univ_five]

/-- A sum over the nodes is the sum, over the twenty blocks, of the blocks' sums. -/
theorem sum_blocks {M : Type*} [AddCommMonoid M] (f : Fin 100000 → M) :
    ∑ n, f n = ∑ s ∈ Finset.range 20, ∑ r : Fin 5000, f (nodeAt s r) := by
  rw [Finset.sum_range (fun s => ∑ r : Fin 5000, f (nodeAt s r)), ← Fintype.sum_prod_type']
  refine (Fintype.sum_equiv ((finProdFinEquiv (m := 20) (n := 5000)).trans (finCongr (show 20 * 5000 = 100000 from rfl))) _ _ ?_).symm
  rintro ⟨s, r⟩
  refine congrArg f (Fin.ext ?_)
  rw [nodeAt_val _ s.isLt]
  simp [finProdFinEquiv]
  omega

end Cert.GraphPool
-- ==== Proof.Blocks.lean ====
/-
  The windows' blocks at a grid point, entry by entry.

  Point t of the grid works on nodes 5000·t … 5000·t + 4999: row r of its feature block is row 5000·t + r of the
  combined-feature array, and likewise for the graph words. Every other window (counts, the three weight matrices,
  the three bias vectors) has one block, the whole array, at every point.
-/
import proofs.«424003_j8297876816594_3_alg».proof.Proof.Gen.KernelIdeal.Frame
import proofs.«424003_j8297876816594_3_alg».proof.Proof.Sums
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen Cert.GraphPool

variable {F : FTy → Type} [FloatOps F]
variable (m : (ℓ : Loc nD τ sig) → Buf (Elt F) ℓ)

/-- Where each window's block sits at point t: windows 0 and 1 at block row t, the others at the origin. -/
theorem index_facts : ∀ t : Fin cfg0.N,
    (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ win0_4.index t 0 = 0 ∧ (win0_5.index t 0 = 0 ∧ win0_5.index t 1 = 0) ∧ win0_6.index t 0 = 0
    ∧ (win0_7.index t 0 = 0 ∧ win0_7.index t 1 = 0) ∧ win0_8.index t 0 = 0
    ∧ (win0_9.index t 0 = 0 ∧ win0_9.index t 1 = 0) :=
  (by decide +kernel : ∀ t : Fin grid0.N, _)

/-- Row r of point t's feature block is the combined-feature array's row 5000·t + r. -/
theorem feat_apply (c : Dev nD) (t : Fin cfg0.N) (r : Fin 5000) (l : Fin 4) :
    (iblk m c 0 t : Vec F S5000x4 .f32) (ix2 r l) = (V m c main_v14 : S100000x4.Idx → Elt F .f32) (ix2 (nodeAt t.val r) l) := by
  have hi := (index_facts t).1
  have hN : t.val < 20 := lt_of_lt_of_eq t.isLt N_0
  unfold iblk
  rw [View.read_apply]
  show V m c main_v14 _ = V m c main_v14 _
  congr 1
  funext a
  apply Fin.ext
  match a with
  | ⟨0, _⟩ => show win0_0.index t 0 * 5000 + 1 * r.val = (nodeAt t.val r).val; rw [hi.1, nodeAt_val _ hN]; omega
  | ⟨1, _⟩ => show win0_0.index t 1 * 4 + 1 * l.val = l.val; rw [hi.2]; omega

/-- Row r of point t's block of graph words is the word column's row 5000·t + r. -/
theorem word_apply (c : Dev nD) (t : Fin cfg0.N) (r : Fin 5000) :
    (iblk m c 1 t : Vec F S5000x1 .i32) (ix2 r (0 : Fin 1)) = (V m c main_v15 : S100000x1.Idx → Elt F .i32) (ix2 (nodeAt t.val r) (0 : Fin 1)) := by
  have hi := (index_facts t).2.1
  have hN : t.val < 20 := lt_of_lt_of_eq t.isLt N_0
  unfold iblk
  rw [View.read_apply]
  show V m c main_v15 _ = V m c main_v15 _
  congr 1
  funext a
  apply Fin.ext
  match a with
  | ⟨0, _⟩ => show win0_1.index t 0 * 5000 + 1 * r.val = (nodeAt t.val r).val; rw [hi.1, nodeAt_val _ hN]; omega
  | ⟨1, _⟩ => show win0_1.index t 1 * 1 + 1 * 0 = 0; rw [hi.2]

/-- The counts' one block is the counts column. -/
theorem cnt_apply (c : Dev nD) (t : Fin cfg0.N) (g : Fin 512) :
    (iblk m c 2 t : Vec F S512x1 .f32) (ix2 g (0 : Fin 1)) = (V m c main_v20 : S512x1.Idx → Elt F .f32) (ix2 g (0 : Fin 1)) := by
  have hi := (index_facts t).2.2.1
  unfold iblk
  rw [View.read_apply]
  show V m c main_v20 _ = V m c main_v20 _
  congr 1
  funext a
  apply Fin.ext
  match a with
  | ⟨0, _⟩ => show win0_2.index t 0 * 512 + 1 * g.val = g.val; rw [hi.1]; omega
  | ⟨1, _⟩ => show win0_2.index t 1 * 1 + 1 * 0 = 0; rw [hi.2]

/-- The first layer's weights' one block is the whole matrix. -/
theorem w1_apply (c : Dev nD) (t : Fin cfg0.N) (l : Fin 4) (k : Fin 64) :
    (iblk m c 3 t : Vec F S4x64 .bf16) (ix2 l k) = (V m c main_v21 : S4x64.Idx → Elt F .bf16) (ix2 l k) := by
  have hi := (index_facts t).2.2.2.1
  unfold iblk
  rw [View.read_apply]
  show V m c main_v21 _ = V m c main_v21 _
  congr 1
  funext a
  apply Fin.ext
  match a with
  | ⟨0, _⟩ => show win0_3.index t 0 * 4 + 1 * l.val = l.val; rw [hi.1]; omega
  | ⟨1, _⟩ => show win0_3.index t 1 * 64 + 1 * k.val = k.val; rw [hi.2]; omega

/-- The first layer's bias. -/
theorem b1_apply (c : Dev nD) (t : Fin cfg0.N) (k : Fin 64) :
    (iblk m c 4 t : Vec F S64 .f32) (ix1 k) = (V m c main_arg4 : S64.Idx → Elt F .f32) (ix1 k) := by
  have hi := (index_facts t).2.2.2.2.1
  unfold iblk
  rw [View.read_apply]
  show V m c main_arg4 _ = V m c main_arg4 _
  congr 1
  funext a
  apply Fin.ext
  match a with
  | ⟨0, _⟩ => show win0_4.index t 0 * 64 + 1 * k.val = k.val; rw [hi]; omega

/-- The second layer's weights. -/
theorem w2_apply (c : Dev nD) (t : Fin cfg0.N) (k : Fin 64) (j : Fin 64) :
    (iblk m c 5 t : Vec F S64x64 .bf16) (ix2 k j) = (V m c main_v22 : S64x64.Idx → Elt F .bf16) (ix2 k j) := by
  have hi := (index_facts t).2.2.2.2.2.1
  unfold iblk
  rw [View.read_apply]
  show V m c main_v22 _ = V m c main_v22 _
  congr 1
  funext a
  apply Fin.ext
  match a with
  | ⟨0, _⟩ => show win0_5.index t 0 * 64 + 1 * k.val = k.val; rw [hi.1]; omega
  | ⟨1, _⟩ => show win0_5.index t 1 * 64 + 1 * j.val = j.val; rw [hi.2]; omega

/-- The second layer's bias. -/
theorem b2_apply (c : Dev nD) (t : Fin cfg0.N) (j : Fin 64) :
    (iblk m c 6 t : Vec F S64 .f32) (ix1 j) = (V m c main_arg6 : S64.Idx → Elt F .f32) (ix1 j) := by
  have hi := (index_facts t).2.2.2.2.2.2.1
  unfold iblk
  rw [View.read_apply]
  show V m c main_arg6 _ = V m c main_arg6 _
  congr 1
  funext a
  apply Fin.ext
  match a with
  | ⟨0, _⟩ => show win0_6.index t 0 * 64 + 1 * j.val = j.val; rw [hi]; omega

/-- The last layer's weights. -/
theorem wl_apply (c : Dev nD) (t : Fin cfg0.N) (k : Fin 64) (o : Fin 128) :
    (iblk m c 7 t : Vec F S64x128 .bf16) (ix2 k o) = (V m c main_v23 : S64x128.Idx → Elt F .bf16) (ix2 k o) := by
  have hi := (index_facts t).2.2.2.2.2.2.2.1
  unfold iblk
  rw [View.read_apply]
  show V m c main_v23 _ = V m c main_v23 _
  congr 1
  funext a
  apply Fin.ext
  match a with
  | ⟨0, _⟩ => show win0_7.index t 0 * 64 + 1 * k.val = k.val; rw [hi.1]; omega
  | ⟨1, _⟩ => show win0_7.index t 1 * 128 + 1 * o.val = o.val; rw [hi.2]; omega

/-- The last layer's bias. -/
theorem bl_apply (c : Dev nD) (t : Fin cfg0.N) (o : Fin 128) :
    (iblk m c 8 t : Vec F S128 .f32) (ix1 o) = (V m c main_arg8 : S128.Idx → Elt F .f32) (ix1 o) := by
  have hi := (index_facts t).2.2.2.2.2.2.2.2.1
  unfold iblk
  rw [View.read_apply]
  show V m c main_arg8 _ = V m c main_arg8 _
  congr 1
  funext a
  apply Fin.ext
  match a with
  | ⟨0, _⟩ => show win0_8.index t 0 * 128 + 1 * o.val = o.val; rw [hi]; omega

end Cert.KernelIdeal.Blocks

end
-- ==== Proof.Spec.lean ====
/-
  The mathematics of the graph network, on the extended reals, with no program in sight.

  Every node n carries a row of four features c(n, ·) (its own features plus the sum of its in-neighbours').
  A two-layer perceptron maps the row to 64 numbers,
      h(n, j) = Σ_k max(Σ_l c(n, l)·W1(l, k) + b1(k), z) · W2(k, j) + b2(j),
  z the zero literal. Every node also carries a graph number, a 32-bit word; node n belongs to graph g when that word,
  read signed, is g. The pooled sum of graph g is the sum of h(n, ·) over its nodes, and the result is the pooled sum
  divided by max(count, one), pushed through one more linear layer.

  Two facts are proved here. The first reads a 32-bit word compared for equality with a small number as the test
  "the word, read signed, is that number". The second splits a sum over the 100000 nodes into the 20 blocks of 5000
  consecutive nodes, and a block into its 5 chunks of 1000.
-/
import Idealize.ShloMosaic.PureOps.Ideal
import Idealize.ShloMosaic.Lib.ValueIdx

noncomputable section

namespace Cert.GraphPool

open Idealize.ShloMosaic Idealize.ShloMosaic.ValueIdx

/-- The perceptron on one node's feature row `x`: entry `j` of its 64 outputs. `z` is the floor of the rectifier. -/
def nodeMlp (z : EReal) (w1 : Fin 4 → Fin 64 → EReal) (b1 : Fin 64 → EReal) (w2 : Fin 64 → Fin 64 → EReal)
    (b2 : Fin 64 → EReal) (x : Fin 4 → EReal) (j : Fin 64) : EReal :=
  (∑ k : Fin 64, max ((∑ l : Fin 4, x l * w1 l k) + b1 k) z * w2 k j) + b2 j

/-- A node whose graph word is `b` contributes `v` to graph `g` when `b`, read signed, is `g`, and nothing otherwise. -/
def share (b : BitVec 32) (g : Fin 512) (v : EReal) : EReal := if b.toInt = (g.val : Int) then v else 0

/-- The last layer at graph `g`, output `o`: the pooled sums `s` of the graph divided by `max(count, one)`, times `wl`, plus `bl`. -/
def headOut (one : EReal) (s : Fin 64 → EReal) (cnt : EReal) (wl : Fin 64 → Fin 128 → EReal) (bl : Fin 128 → EReal)
    (o : Fin 128) : EReal :=
  (∑ k : Fin 64, Ideal.div (s k) (max cnt one) * wl k o) + bl o

/-- The word of a number below 512, read signed, is that number. -/
theorem toInt_small (g : Fin 512) : (BitVec.ofNat 32 g.val).toInt = (g.val : Int) := by
  have hg := g.isLt
  rw [BitVec.toInt_eq_toNat_cond, BitVec.toNat_ofNat]
  have : g.val % 2 ^ 32 = g.val := Nat.mod_eq_of_lt (by omega)
  rw [this]
  split <;> omega

/-- A 32-bit word equals the word of a number below 512 exactly when, read signed, it is that number. -/
theorem word_eq_iff (b : BitVec 32) (g : Fin 512) : BitVec.ofNat 32 g.val = b ↔ b.toInt = (g.val : Int) := by
  constructor
  · intro h
    subst h
    exact toInt_small g
  · intro h
    apply BitVec.eq_of_toInt_eq
    rw [h, toInt_small]

/-- The one-hot entry the kernel multiplies by: the comparison bit, widened to 32 bits and converted, is one on a
    match and zero otherwise; times `v` it is the node's share. -/
theorem onehot_mul (b : BitVec 32) (g : Fin 512) (v : EReal) :
    (((((IntOp.cmpi .eq (BitVec.ofNat 32 g.val) b).setWidth 32).toInt : ℝ) : EReal)) * v = share b g v := by
  unfold share
  by_cases h : b.toInt = (g.val : Int)
  · rw [if_pos h]
    have e : BitVec.ofNat 32 g.val = b := (word_eq_iff b g).2 h
    have : IntOp.cmpi .eq (BitVec.ofNat 32 g.val) b = 1#1 := by
      unfold IntOp.cmpi; simp [e]
    rw [this]
    simp
  · rw [if_neg h]
    have e : ¬ BitVec.ofNat 32 g.val = b := fun e => h ((word_eq_iff b g).1 e)
    have hb : (BitVec.ofNat 32 g.val == b) = false := beq_eq_false_iff_ne.mpr e
    have : IntOp.cmpi .eq (BitVec.ofNat 32 g.val) b = 0#1 := by
      unfold IntOp.cmpi; simp [hb]
    rw [this]
    simp

end Cert.GraphPool

end
-- ==== Proof.PayValue.lean ====
/-
  The kernel body's payloads read at an index, in exact arithmetic (floats are extended reals).

  One chunk of 1000 nodes contributes, to graph g and output j,
      Σ_q O(q, g) · H(q, j),
  where H(q, ·) is the two-layer perceptron on row q of the chunk's features, and O(q, g) is one when row q's graph word,
  compared with the column number g, matches, and zero otherwise. The sum comes from a product that contracts the row
  axis of both operands; the perceptron's two layers are products that contract one axis each, into a zero accumulator,
  followed by a bias broadcast along the rows, the first also by a maximum with the zero literal. In exact arithmetic
  every rounding to a narrower format is the identity, so each payload is the mathematical expression itself:
  the running sums plus the chunk's shares (chunks one to five), and for the last layer the pooled sums divided by
  max(count, one), times the last weights, plus the last bias.

  Each product is first read at an index as a sum over its one contracted coordinate; then come the two layouts the
  bodies use (a column broadcast along the columns, a vector broadcast down the rows), the one-hot entry, the
  perceptron's entry, and the payloads.
-/
import proofs.«424003_j8297876816594_3_alg».proof.Proof.Gen.KernelIdeal.Skeleton
import proofs.«424003_j8297876816594_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section
namespace Cert.KernelIdeal.PayValue
open Idealize.ShloMosaic Idealize.ShloMosaic.ValueIdx Cert.KernelIdeal Cert.KernelIdeal.Gen Cert.GraphPool

/-! ## The first layer's product: 1000×4 times 4×64, contracting the left operand's axis 1 with the right's axis 0 -/

theorem lhsA_0 (i : S1000x64.Idx) (q : dot_S1000x4_S4x64_S1000x64_1_0_0_1_n_n.contr.Idx) :
    (dot_S1000x4_S4x64_S1000x64_1_0_0_1_n_n.lhsIdx i q 0).val = (i 0).val := by
  unfold DotDims.lhsIdx
  rw [dif_neg (show ¬(0 : Fin S1000x4.rank) ∈ dot_S1000x4_S4x64_S1000x64_1_0_0_1_n_n.lhsBatch by decide), dif_pos (show (0 : Fin S1000x4.rank) ∈ dot_S1000x4_S4x64_S1000x64_1_0_0_1_n_n.lhsNonContracting by decide)]
  rfl
theorem lhsA_1 (i : S1000x64.Idx) (q : dot_S1000x4_S4x64_S1000x64_1_0_0_1_n_n.contr.Idx) :
    (dot_S1000x4_S4x64_S1000x64_1_0_0_1_n_n.lhsIdx i q 1).val = (q ⟨0, by decide⟩).val :=
  dot_S1000x4_S4x64_S1000x64_1_0_0_1_n_n.lhsIdx_val_of_single rfl i q
theorem rhsA_0 (i : S1000x64.Idx) (q : dot_S1000x4_S4x64_S1000x64_1_0_0_1_n_n.contr.Idx) :
    (dot_S1000x4_S4x64_S1000x64_1_0_0_1_n_n.rhsIdx i q 0).val = (q ⟨0, by decide⟩).val :=
  dot_S1000x4_S4x64_S1000x64_1_0_0_1_n_n.rhsIdx_val_of_single rfl i q
theorem rhsA_1 (i : S1000x64.Idx) (q : dot_S1000x4_S4x64_S1000x64_1_0_0_1_n_n.contr.Idx) :
    (dot_S1000x4_S4x64_S1000x64_1_0_0_1_n_n.rhsIdx i q 1).val = (i 1).val := by
  unfold DotDims.rhsIdx
  rw [dif_neg (show ¬(1 : Fin S4x64.rank) ∈ dot_S1000x4_S4x64_S1000x64_1_0_0_1_n_n.rhsBatch by decide), dif_pos (show (1 : Fin S4x64.rank) ∈ dot_S1000x4_S4x64_S1000x64_1_0_0_1_n_n.rhsNonContracting by decide)]
  rfl

/-- Into a zero accumulator, entry (q, k) of the product is the sum over the four contracted positions. -/
theorem matmulA_apply (x : FVec Ideal S1000x4 .bf16) (w : FVec Ideal S4x64 .bf16) (q : Fin 1000) (k : Fin 64) :
    matmul dot_S1000x4_S4x64_S1000x64_1_0_0_1_n_n none x w (constant (F := Ideal) S1000x64 .f32 0x00000000#32) (ix2 q k)
      = ∑ l : Fin 4, x (ix2 q l) * w (ix2 l k) := by
  show FloatOps.matmul dot_S1000x4_S4x64_S1000x64_1_0_0_1_n_n none x w (constant (F := Ideal) S1000x64 .f32 0x00000000#32) (ix2 q k) = _
  rw [Ideal.matmul_constant_zero_apply, ← Equiv.sum_comp (contrEquiv1 dot_S1000x4_S4x64_S1000x64_1_0_0_1_n_n 4 rfl rfl).symm]
  refine Finset.sum_congr rfl fun l _ => ?_
  have hl := contrEquiv1_symm_val dot_S1000x4_S4x64_S1000x64_1_0_0_1_n_n 4 rfl rfl l
  have el : dot_S1000x4_S4x64_S1000x64_1_0_0_1_n_n.lhsIdx (ix2 q k) ((contrEquiv1 dot_S1000x4_S4x64_S1000x64_1_0_0_1_n_n 4 rfl rfl).symm l) = ix2 q l := funext fun a => Fin.ext (by
    match a with
    | ⟨0, _⟩ => exact lhsA_0 _ _
    | ⟨1, _⟩ => exact (lhsA_1 _ _).trans hl)
  have er : dot_S1000x4_S4x64_S1000x64_1_0_0_1_n_n.rhsIdx (ix2 q k) ((contrEquiv1 dot_S1000x4_S4x64_S1000x64_1_0_0_1_n_n 4 rfl rfl).symm l) = ix2 l k := funext fun a => Fin.ext (by
    match a with
    | ⟨0, _⟩ => exact (rhsA_0 _ _).trans hl
    | ⟨1, _⟩ => exact rhsA_1 _ _)
  rw [el, er]

/-! ## The second layer's product: 1000×64 times 64×64, contracting the left operand's axis 1 with the right's axis 0 -/

theorem lhsB_0 (i : S1000x64.Idx) (q : dot_S1000x64_S64x64_S1000x64_1_0_0_1_n_n.contr.Idx) :
    (dot_S1000x64_S64x64_S1000x64_1_0_0_1_n_n.lhsIdx i q 0).val = (i 0).val := by
  unfold DotDims.lhsIdx
  rw [dif_neg (show ¬(0 : Fin S1000x64.rank) ∈ dot_S1000x64_S64x64_S1000x64_1_0_0_1_n_n.lhsBatch by decide), dif_pos (show (0 : Fin S1000x64.rank) ∈ dot_S1000x64_S64x64_S1000x64_1_0_0_1_n_n.lhsNonContracting by decide)]
  rfl
theorem lhsB_1 (i : S1000x64.Idx) (q : dot_S1000x64_S64x64_S1000x64_1_0_0_1_n_n.contr.Idx) :
    (dot_S1000x64_S64x64_S1000x64_1_0_0_1_n_n.lhsIdx i q 1).val = (q ⟨0, by decide⟩).val :=
  dot_S1000x64_S64x64_S1000x64_1_0_0_1_n_n.lhsIdx_val_of_single rfl i q
theorem rhsB_0 (i : S1000x64.Idx) (q : dot_S1000x64_S64x64_S1000x64_1_0_0_1_n_n.contr.Idx) :
    (dot_S1000x64_S64x64_S1000x64_1_0_0_1_n_n.rhsIdx i q 0).val = (q ⟨0, by decide⟩).val :=
  dot_S1000x64_S64x64_S1000x64_1_0_0_1_n_n.rhsIdx_val_of_single rfl i q
theorem rhsB_1 (i : S1000x64.Idx) (q : dot_S1000x64_S64x64_S1000x64_1_0_0_1_n_n.contr.Idx) :
    (dot_S1000x64_S64x64_S1000x64_1_0_0_1_n_n.rhsIdx i q 1).val = (i 1).val := by
  unfold DotDims.rhsIdx
  rw [dif_neg (show ¬(1 : Fin S64x64.rank) ∈ dot_S1000x64_S64x64_S1000x64_1_0_0_1_n_n.rhsBatch by decide), dif_pos (show (1 : Fin S64x64.rank) ∈ dot_S1000x64_S64x64_S1000x64_1_0_0_1_n_n.rhsNonContracting by decide)]
  rfl

/-- Into a zero accumulator, entry (q, j) of the product is the sum over the 64 contracted positions. -/
theorem matmulB_apply (x : FVec Ideal S1000x64 .bf16) (w : FVec Ideal S64x64 .bf16) (q : Fin 1000) (j : Fin 64) :
    matmul dot_S1000x64_S64x64_S1000x64_1_0_0_1_n_n none x w (constant (F := Ideal) S1000x64 .f32 0x00000000#32) (ix2 q j)
      = ∑ k : Fin 64, x (ix2 q k) * w (ix2 k j) := by
  show FloatOps.matmul dot_S1000x64_S64x64_S1000x64_1_0_0_1_n_n none x w (constant (F := Ideal) S1000x64 .f32 0x00000000#32) (ix2 q j) = _
  rw [Ideal.matmul_constant_zero_apply, ← Equiv.sum_comp (contrEquiv1 dot_S1000x64_S64x64_S1000x64_1_0_0_1_n_n 64 rfl rfl).symm]
  refine Finset.sum_congr rfl fun k _ => ?_
  have hk := contrEquiv1_symm_val dot_S1000x64_S64x64_S1000x64_1_0_0_1_n_n 64 rfl rfl k
  have el : dot_S1000x64_S64x64_S1000x64_1_0_0_1_n_n.lhsIdx (ix2 q j) ((contrEquiv1 dot_S1000x64_S64x64_S1000x64_1_0_0_1_n_n 64 rfl rfl).symm k) = ix2 q k := funext fun a => Fin.ext (by
    match a with
    | ⟨0, _⟩ => exact lhsB_0 _ _
    | ⟨1, _⟩ => exact (lhsB_1 _ _).trans hk)
  have er : dot_S1000x64_S64x64_S1000x64_1_0_0_1_n_n.rhsIdx (ix2 q j) ((contrEquiv1 dot_S1000x64_S64x64_S1000x64_1_0_0_1_n_n 64 rfl rfl).symm k) = ix2 k j := funext fun a => Fin.ext (by
    match a with
    | ⟨0, _⟩ => exact (rhsB_0 _ _).trans hk
    | ⟨1, _⟩ => exact rhsB_1 _ _)
  rw [el, er]

/-! ## The pooling product: the transpose of 1000×512 times 1000×64, contracting axis 0 of both operands -/

theorem lhsC_0 (i : S512x64.Idx) (q : dot_S1000x512_S1000x64_S512x64_0_0_1_1_n_n.contr.Idx) :
    (dot_S1000x512_S1000x64_S512x64_0_0_1_1_n_n.lhsIdx i q 0).val = (q ⟨0, by decide⟩).val :=
  dot_S1000x512_S1000x64_S512x64_0_0_1_1_n_n.lhsIdx_val_of_single rfl i q
theorem lhsC_1 (i : S512x64.Idx) (q : dot_S1000x512_S1000x64_S512x64_0_0_1_1_n_n.contr.Idx) :
    (dot_S1000x512_S1000x64_S512x64_0_0_1_1_n_n.lhsIdx i q 1).val = (i 0).val := by
  unfold DotDims.lhsIdx
  rw [dif_neg (show ¬(1 : Fin S1000x512.rank) ∈ dot_S1000x512_S1000x64_S512x64_0_0_1_1_n_n.lhsBatch by decide), dif_pos (show (1 : Fin S1000x512.rank) ∈ dot_S1000x512_S1000x64_S512x64_0_0_1_1_n_n.lhsNonContracting by decide)]
  rfl
theorem rhsC_0 (i : S512x64.Idx) (q : dot_S1000x512_S1000x64_S512x64_0_0_1_1_n_n.contr.Idx) :
    (dot_S1000x512_S1000x64_S512x64_0_0_1_1_n_n.rhsIdx i q 0).val = (q ⟨0, by decide⟩).val :=
  dot_S1000x512_S1000x64_S512x64_0_0_1_1_n_n.rhsIdx_val_of_single rfl i q
theorem rhsC_1 (i : S512x64.Idx) (q : dot_S1000x512_S1000x64_S512x64_0_0_1_1_n_n.contr.Idx) :
    (dot_S1000x512_S1000x64_S512x64_0_0_1_1_n_n.rhsIdx i q 1).val = (i 1).val := by
  unfold DotDims.rhsIdx
  rw [dif_neg (show ¬(1 : Fin S1000x64.rank) ∈ dot_S1000x512_S1000x64_S512x64_0_0_1_1_n_n.rhsBatch by decide), dif_pos (show (1 : Fin S1000x64.rank) ∈ dot_S1000x512_S1000x64_S512x64_0_0_1_1_n_n.rhsNonContracting by decide)]
  rfl

/-- Into a zero accumulator, entry (g, j) of the product is the sum over the 1000 rows of the two operands. -/
theorem matmulC_apply (x : FVec Ideal S1000x512 .bf16) (h : FVec Ideal S1000x64 .bf16) (g : Fin 512) (j : Fin 64) :
    matmul dot_S1000x512_S1000x64_S512x64_0_0_1_1_n_n none x h (constant (F := Ideal) S512x64 .f32 0x00000000#32) (ix2 g j)
      = ∑ q : Fin 1000, x (ix2 q g) * h (ix2 q j) := by
  show FloatOps.matmul dot_S1000x512_S1000x64_S512x64_0_0_1_1_n_n none x h (constant (F := Ideal) S512x64 .f32 0x00000000#32) (ix2 g j) = _
  rw [Ideal.matmul_constant_zero_apply, ← Equiv.sum_comp (contrEquiv1 dot_S1000x512_S1000x64_S512x64_0_0_1_1_n_n 1000 rfl rfl).symm]
  refine Finset.sum_congr rfl fun q _ => ?_
  have hq := contrEquiv1_symm_val dot_S1000x512_S1000x64_S512x64_0_0_1_1_n_n 1000 rfl rfl q
  have el : dot_S1000x512_S1000x64_S512x64_0_0_1_1_n_n.lhsIdx (ix2 g j) ((contrEquiv1 dot_S1000x512_S1000x64_S512x64_0_0_1_1_n_n 1000 rfl rfl).symm q) = ix2 q g := funext fun a => Fin.ext (by
    match a with
    | ⟨0, _⟩ => exact (lhsC_0 _ _).trans hq
    | ⟨1, _⟩ => exact lhsC_1 _ _)
  have er : dot_S1000x512_S1000x64_S512x64_0_0_1_1_n_n.rhsIdx (ix2 g j) ((contrEquiv1 dot_S1000x512_S1000x64_S512x64_0_0_1_1_n_n 1000 rfl rfl).symm q) = ix2 q j := funext fun a => Fin.ext (by
    match a with
    | ⟨0, _⟩ => exact (rhsC_0 _ _).trans hq
    | ⟨1, _⟩ => exact rhsC_1 _ _)
  rw [el, er]

/-! ## The last layer's product: 512×64 times 64×128, contracting the left operand's axis 1 with the right's axis 0 -/

theorem lhsD_0 (i : S512x128.Idx) (q : dot_S512x64_S64x128_S512x128_1_0_0_1_n_n.contr.Idx) :
    (dot_S512x64_S64x128_S512x128_1_0_0_1_n_n.lhsIdx i q 0).val = (i 0).val := by
  unfold DotDims.lhsIdx
  rw [dif_neg (show ¬(0 : Fin S512x64.rank) ∈ dot_S512x64_S64x128_S512x128_1_0_0_1_n_n.lhsBatch by decide), dif_pos (show (0 : Fin S512x64.rank) ∈ dot_S512x64_S64x128_S512x128_1_0_0_1_n_n.lhsNonContracting by decide)]
  rfl
theorem lhsD_1 (i : S512x128.Idx) (q : dot_S512x64_S64x128_S512x128_1_0_0_1_n_n.contr.Idx) :
    (dot_S512x64_S64x128_S512x128_1_0_0_1_n_n.lhsIdx i q 1).val = (q ⟨0, by decide⟩).val :=
  dot_S512x64_S64x128_S512x128_1_0_0_1_n_n.lhsIdx_val_of_single rfl i q
theorem rhsD_0 (i : S512x128.Idx) (q : dot_S512x64_S64x128_S512x128_1_0_0_1_n_n.contr.Idx) :
    (dot_S512x64_S64x128_S512x128_1_0_0_1_n_n.rhsIdx i q 0).val = (q ⟨0, by decide⟩).val :=
  dot_S512x64_S64x128_S512x128_1_0_0_1_n_n.rhsIdx_val_of_single rfl i q
theorem rhsD_1 (i : S512x128.Idx) (q : dot_S512x64_S64x128_S512x128_1_0_0_1_n_n.contr.Idx) :
    (dot_S512x64_S64x128_S512x128_1_0_0_1_n_n.rhsIdx i q 1).val = (i 1).val := by
  unfold DotDims.rhsIdx
  rw [dif_neg (show ¬(1 : Fin S64x128.rank) ∈ dot_S512x64_S64x128_S512x128_1_0_0_1_n_n.rhsBatch by decide), dif_pos (show (1 : Fin S64x128.rank) ∈ dot_S512x64_S64x128_S512x128_1_0_0_1_n_n.rhsNonContracting by decide)]
  rfl

/-- Into a zero accumulator, entry (g, o) of the product is the sum over the 64 contracted positions. -/
theorem matmulD_apply (x : FVec Ideal S512x64 .bf16) (w : FVec Ideal S64x128 .bf16) (g : Fin 512) (o : Fin 128) :
    matmul dot_S512x64_S64x128_S512x128_1_0_0_1_n_n none x w (constant (F := Ideal) S512x128 .f32 0x00000000#32) (ix2 g o)
      = ∑ k : Fin 64, x (ix2 g k) * w (ix2 k o) := by
  show FloatOps.matmul dot_S512x64_S64x128_S512x128_1_0_0_1_n_n none x w (constant (F := Ideal) S512x128 .f32 0x00000000#32) (ix2 g o) = _
  rw [Ideal.matmul_constant_zero_apply, ← Equiv.sum_comp (contrEquiv1 dot_S512x64_S64x128_S512x128_1_0_0_1_n_n 64 rfl rfl).symm]
  refine Finset.sum_congr rfl fun k _ => ?_
  have hk := contrEquiv1_symm_val dot_S512x64_S64x128_S512x128_1_0_0_1_n_n 64 rfl rfl k
  have el : dot_S512x64_S64x128_S512x128_1_0_0_1_n_n.lhsIdx (ix2 g o) ((contrEquiv1 dot_S512x64_S64x128_S512x128_1_0_0_1_n_n 64 rfl rfl).symm k) = ix2 g k := funext fun a => Fin.ext (by
    match a with
    | ⟨0, _⟩ => exact lhsD_0 _ _
    | ⟨1, _⟩ => exact (lhsD_1 _ _).trans hk)
  have er : dot_S512x64_S64x128_S512x128_1_0_0_1_n_n.rhsIdx (ix2 g o) ((contrEquiv1 dot_S512x64_S64x128_S512x128_1_0_0_1_n_n 64 rfl rfl).symm k) = ix2 k o := funext fun a => Fin.ext (by
    match a with
    | ⟨0, _⟩ => exact (rhsD_0 _ _).trans hk
    | ⟨1, _⟩ => exact rhsD_1 _ _)
  rw [el, er]

/-! ## Two layouts read at an index -/

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[b]` viewed as one row and broadcast down `a` rows reads, at `(p, c)`, the vector's entry `c`. -/
theorem biasRow_apply {α : Type} {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩) (p : Fin a) (c : Fin b) :
    broadcastTo ⟨2, ![a, b]⟩ (shapeCast ⟨2, ![1, b]⟩ v hc) hb (ix2 p c) = v (ix1 c) :=
  (broadcastTo_1b_ab_apply _ hb p c).trans (shapeCast_a_1a_apply v hc 0 c)

/-! ## The payloads that only copy -/

/-- The initial pooled sums are the zero literal everywhere. -/
theorem pay2_apply (g : Fin 512) (j : Fin 64) :
    k0_pay2 (F := Ideal) (ix2 g j) = Ideal.ofBits .f32 0x00000000#32 := by
  unfold k0_pay2
  rw [shapeCast_self]
  rfl

theorem pay4_eq (v : FVec Ideal S512x64 .f32) : k0_pay4 (F := Ideal) v = v := by
  unfold k0_pay4
  exact shapeCast_self v _
theorem pay6_eq (v : FVec Ideal S512x64 .f32) : k0_pay6 (F := Ideal) v = v := by
  unfold k0_pay6
  exact shapeCast_self v _

/-! ## One chunk of 1000 nodes -/

/-- The one-hot factor at (q, g): the bit of "column number g is row q's graph word", widened to 32 bits and converted.
    Rounding to the narrower format changes nothing in exact arithmetic. -/
theorem onehot_apply (w : IVec S1000x1 32) (hi : S1000x512.Iotas .tc 32 [1]) (hb : S1000x1.Broadcasts S1000x512) (h1 : 1 < 32)
    (ht : FTy.bf16.bits < FTy.f32.bits) (q : Fin 1000) (g : Fin 512) :
    (truncf .bf16 (sitofp (F := Ideal) .f32 (extui 32 (cmpi .eq (iota .tc S1000x512 32 [1] hi) (broadcastTo S1000x512 w hb)) h1)) ht
        : FVec Ideal S1000x512 .bf16) (ix2 q g)
      = (((((IntOp.cmpi .eq (BitVec.ofNat 32 g.val) (w (ix2 q (0 : Fin 1)))).setWidth 32).toInt : ℝ) : EReal)) := by
  rw [truncf_apply, sitofp_apply, extui_apply]
  show FloatOps.sitofp (F := Ideal) .f32 ((IntOp.cmpi .eq (iota .tc S1000x512 32 [1] hi (ix2 q g)) (broadcastTo S1000x512 w hb (ix2 q g))).setWidth 32) = _
  rw [iota_single_apply, broadcastTo_a1_ab_apply]
  rfl

/-- The perceptron's output at (q, j): two products into zero, each followed by its bias along the rows, the first
    also by the rectifier; every rounding step is the identity in exact arithmetic. -/
theorem hidden_apply (x : FVec Ideal S1000x4 .f32) (w1 : FVec Ideal S4x64 .bf16) (b1 : FVec Ideal S64 .f32)
    (w2 : FVec Ideal S64x64 .bf16) (b2 : FVec Ideal S64 .f32) (ht : FTy.bf16.bits < FTy.f32.bits)
    (hc : S64.ShapeCasts S1x64) (hb : S1x64.Broadcasts S1000x64) (q : Fin 1000) (j : Fin 64) :
    (truncf .bf16 (addf (matmul dot_S1000x64_S64x64_S1000x64_1_0_0_1_n_n none
        (truncf .bf16 (maximumf (addf (matmul dot_S1000x4_S4x64_S1000x64_1_0_0_1_n_n none (truncf .bf16 x ht) w1
              (constant (F := Ideal) S1000x64 .f32 0x00000000#32))
            (broadcastTo S1000x64 (shapeCast S1x64 b1 hc) hb))
          (broadcast S1000x64 (Ideal.ofBits .f32 0x00000000#32))) ht)
        w2 (constant (F := Ideal) S1000x64 .f32 0x00000000#32))
      (broadcastTo S1000x64 (shapeCast S1x64 b2 hc) hb)) ht : FVec Ideal S1000x64 .bf16) (ix2 q j)
    = nodeMlp (Ideal.ofBits .f32 0x00000000#32) (fun l k => w1 (ix2 l k)) (fun k => b1 (ix1 k)) (fun k j => w2 (ix2 k j))
        (fun j => b2 (ix1 j)) (fun l => x (ix2 q l)) j := by
  unfold nodeMlp
  rw [truncf_apply, addf_apply, matmulB_apply, biasRow_apply]
  refine congrArg (· + b2 (ix1 j)) (Finset.sum_congr rfl fun k _ => ?_)
  rw [truncf_apply, maximumf_apply, addf_apply, matmulA_apply, biasRow_apply, broadcast_apply]
  refine congrArg (fun t => max (t + b1 (ix1 k)) (Ideal.ofBits .f32 0x00000000#32) * w2 (ix2 k j)) (Finset.sum_congr rfl fun l _ => ?_)
  rw [truncf_apply]

/-- The first chunk: the running sums plus, for graph g and output j, the sum over the chunk's 1000 nodes of each node's
    share of its perceptron output. -/
theorem pay3_apply (v6 : Vec Ideal S1000x4 .f32) (v9 : Vec Ideal S1000x1 .i32) (v12 : Vec Ideal S4x64 .bf16) (v15 : Vec Ideal S64 .f32)
    (v22 : Vec Ideal S64x64 .bf16) (v25 : Vec Ideal S64 .f32) (v37 : Vec Ideal S512x64 .f32) (g : Fin 512) (j : Fin 64) :
    k0_pay3 (F := Ideal) v6 v9 v12 v15 v22 v25 v37 (ix2 g j)
      = v37 (ix2 g j) + ∑ q : Fin 1000, share (v9 (ix2 q (0 : Fin 1))) g
          (nodeMlp (Ideal.ofBits .f32 0x00000000#32) (fun l k => v12 (ix2 l k)) (fun k => v15 (ix1 k)) (fun k j => v22 (ix2 k j))
            (fun j => v25 (ix1 j)) (fun l => v6 (ix2 q l)) j) := by
  unfold k0_pay3
  simp only [shapeCast_self, Ideal.ofBits_def]
  rw [addf_apply, matmulC_apply]
  refine congrArg (v37 (ix2 g j) + ·) (Finset.sum_congr rfl fun q _ => ?_)
  rw [onehot_apply, hidden_apply]
  exact onehot_mul _ _ _

/-- The later chunks are the same function of their own operands. -/
theorem pay5_apply (v6 : Vec Ideal S1000x4 .f32) (v9 : Vec Ideal S1000x1 .i32) (v12 : Vec Ideal S4x64 .bf16) (v15 : Vec Ideal S64 .f32)
    (v22 : Vec Ideal S64x64 .bf16) (v25 : Vec Ideal S64 .f32) (v37 : Vec Ideal S512x64 .f32) (g : Fin 512) (j : Fin 64) :
    k0_pay5 (F := Ideal) v6 v9 v12 v15 v22 v25 v37 (ix2 g j)
      = v37 (ix2 g j) + ∑ q : Fin 1000, share (v9 (ix2 q (0 : Fin 1))) g
          (nodeMlp (Ideal.ofBits .f32 0x00000000#32) (fun l k => v12 (ix2 l k)) (fun k => v15 (ix1 k)) (fun k j => v22 (ix2 k j))
            (fun j => v25 (ix1 j)) (fun l => v6 (ix2 q l)) j) :=
  pay3_apply v6 v9 v12 v15 v22 v25 v37 g j

theorem pay7_apply (v6 : Vec Ideal S1000x4 .f32) (v9 : Vec Ideal S1000x1 .i32) (v12 : Vec Ideal S4x64 .bf16) (v15 : Vec Ideal S64 .f32)
    (v22 : Vec Ideal S64x64 .bf16) (v25 : Vec Ideal S64 .f32) (v37 : Vec Ideal S512x64 .f32) (g : Fin 512) (j : Fin 64) :
    k0_pay7 (F := Ideal) v6 v9 v12 v15 v22 v25 v37 (ix2 g j)
      = v37 (ix2 g j) + ∑ q : Fin 1000, share (v9 (ix2 q (0 : Fin 1))) g
          (nodeMlp (Ideal.ofBits .f32 0x00000000#32) (fun l k => v12 (ix2 l k)) (fun k => v15 (ix1 k)) (fun k j => v22 (ix2 k j))
            (fun j => v25 (ix1 j)) (fun l => v6 (ix2 q l)) j) := by
  have e : k0_pay7 (F := Ideal) v6 v9 v12 v15 v22 v25 v37 = k0_pay3 (F := Ideal) v6 v9 v12 v15 v22 v25 v37 :=
    shapeCast_self (k0_pay3 (F := Ideal) v6 v9 v12 v15 v22 v25 v37) _
  rw [e]
  exact pay3_apply v6 v9 v12 v15 v22 v25 v37 g j

theorem pay8_apply (v6 : Vec Ideal S1000x4 .f32) (v9 : Vec Ideal S1000x1 .i32) (v12 : Vec Ideal S4x64 .bf16) (v15 : Vec Ideal S64 .f32)
    (v22 : Vec Ideal S64x64 .bf16) (v25 : Vec Ideal S64 .f32) (v37 : Vec Ideal S512x64 .f32) (g : Fin 512) (j : Fin 64) :
    k0_pay8 (F := Ideal) v6 v9 v12 v15 v22 v25 v37 (ix2 g j)
      = v37 (ix2 g j) + ∑ q : Fin 1000, share (v9 (ix2 q (0 : Fin 1))) g
          (nodeMlp (Ideal.ofBits .f32 0x00000000#32) (fun l k => v12 (ix2 l k)) (fun k => v15 (ix1 k)) (fun k j => v22 (ix2 k j))
            (fun j => v25 (ix1 j)) (fun l => v6 (ix2 q l)) j) := by
  have e : k0_pay8 (F := Ideal) v6 v9 v12 v15 v22 v25 v37 = k0_pay3 (F := Ideal) v6 v9 v12 v15 v22 v25 v37 :=
    shapeCast_self (k0_pay3 (F := Ideal) v6 v9 v12 v15 v22 v25 v37) _
  rw [e]
  exact pay3_apply v6 v9 v12 v15 v22 v25 v37 g j

theorem pay9_apply (v6 : Vec Ideal S1000x4 .f32) (v9 : Vec Ideal S1000x1 .i32) (v12 : Vec Ideal S4x64 .bf16) (v15 : Vec Ideal S64 .f32)
    (v22 : Vec Ideal S64x64 .bf16) (v25 : Vec Ideal S64 .f32) (v37 : Vec Ideal S512x64 .f32) (g : Fin 512) (j : Fin 64) :
    k0_pay9 (F := Ideal) v6 v9 v12 v15 v22 v25 v37 (ix2 g j)
      = v37 (ix2 g j) + ∑ q : Fin 1000, share (v9 (ix2 q (0 : Fin 1))) g
          (nodeMlp (Ideal.ofBits .f32 0x00000000#32) (fun l k => v12 (ix2 l k)) (fun k => v15 (ix1 k)) (fun k j => v22 (ix2 k j))
            (fun j => v25 (ix1 j)) (fun l => v6 (ix2 q l)) j) := by
  have e : k0_pay9 (F := Ideal) v6 v9 v12 v15 v22 v25 v37 = k0_pay3 (F := Ideal) v6 v9 v12 v15 v22 v25 v37 :=
    shapeCast_self (k0_pay3 (F := Ideal) v6 v9 v12 v15 v22 v25 v37) _
  rw [e]
  exact pay3_apply v6 v9 v12 v15 v22 v25 v37 g j

/-! ## The last layer -/

/-- Graph g's pooled sums, each divided by max(count, one), through the last linear layer. -/
theorem pay1_apply (v201 : Vec Ideal S512x1 .f32) (v205 : Vec Ideal S512x64 .f32) (v209 : Vec Ideal S64x128 .bf16) (v212 : Vec Ideal S128 .f32)
    (g : Fin 512) (o : Fin 128) :
    k0_pay1 (F := Ideal) v201 v205 v209 v212 (ix2 g o)
      = headOut (Ideal.ofBits .f32 0x3F800000#32) (fun k => v205 (ix2 g k)) (v201 (ix2 g (0 : Fin 1))) (fun k o => v209 (ix2 k o))
          (fun o => v212 (ix1 o)) o := by
  unfold k0_pay1 headOut
  simp only [shapeCast_self, Ideal.ofBits_def]
  rw [addf_apply, matmulD_apply, biasRow_apply]
  refine congrArg (· + v212 (ix1 o)) (Finset.sum_congr rfl fun k _ => ?_)
  rw [truncf_apply, divf_apply, broadcastTo_a1_ab_apply, maximumf_apply, broadcast_apply]

end Cert.KernelIdeal.PayValue
end
-- ==== Proof.Pooled.lean ====
/-
  The kernel's result array, as one function of the arrays the call finds.

  One sweep adds to the pooled-sum buffer, at (g, j), the shares of graph g of the point's 5000 nodes: the five chunk
  steps add the five chunks' shares one after the other, and a sum over a block is the sum of its chunks' sums. The
  buffer is carried from point to point, stored with zeros before the first sweep; so after point n it holds the zero
  literal plus the shares of the blocks 0 … n, and after the last point the shares of all 100000 nodes — the sum over
  the nodes being the sum over the twenty blocks of the blocks' sums. The last point then writes the head layer of
  that buffer into the output block, which is the whole result array, and no other point writes it back.
-/
import proofs.«424003_j8297876816594_3_alg».proof.Proof.Gen.KernelIdeal.Value
import proofs.«424003_j8297876816594_3_alg».proof.Proof.Pieces
import proofs.«424003_j8297876816594_3_alg».proof.Proof.Blocks
import proofs.«424003_j8297876816594_3_alg».proof.Proof.PayValue
import proofs.«424003_j8297876816594_3_alg».proof.Proof.Spec
import proofs.«424003_j8297876816594_3_alg».proof.Proof.Sums
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Pooled

open Cert.KernelIdeal Cert.KernelIdeal.Gen Cert.KernelIdeal.Pieces Cert.KernelIdeal.PayValue Cert.KernelIdeal.Blocks Cert.GraphPool

/-- The zero literal: the rectifier's floor and the value the pooled-sum buffer starts from. -/
abbrev zeroLit : EReal := Ideal.ofBits .f32 0x00000000#32
/-- The one literal the counts are clamped below by. -/
abbrev oneLit : EReal := Ideal.ofBits .f32 0x3F800000#32

/-! ## One sweep at an index -/

/-- Row q of the chunk of feature rows starting at row 1000·c is the block's row 1000·c + q. -/
theorem ld_feat (x0 : Vec Ideal S5000x4 .f32) (off : Nat)
    (h : ∀ a, (![off, 0] : Fin 2 → Nat) a + (![1000, 4] : Fin 2 → Nat) a ≤ S5000x4.size a)
    (c : Fin 5) (hoff : off = 1000 * c.val) (q : Fin 1000) (l : Fin 4) :
    featRows x0 off h (ix2 q l) = x0 (ix2 (rowAt c q) l) := by
  subst hoff
  show x0 _ = x0 _
  congr 1
  funext a
  apply Fin.ext
  match a with
  | ⟨0, _⟩ => show 1000 * c.val + 1 * q.val = 1000 * c.val + q.val; omega
  | ⟨1, _⟩ => show 0 + 1 * l.val = l.val; omega

/-- The same for the graph words. -/
theorem ld_word (x1 : Vec Ideal S5000x1 .i32) (off : Nat)
    (h : ∀ a, (![off, 0] : Fin 2 → Nat) a + (![1000, 1] : Fin 2 → Nat) a ≤ S5000x1.size a)
    (c : Fin 5) (hoff : off = 1000 * c.val) (q : Fin 1000) :
    wordRows x1 off h (ix2 q (0 : Fin 1)) = x1 (ix2 (rowAt c q) (0 : Fin 1)) := by
  subst hoff
  show x1 _ = x1 _
  congr 1
  funext a
  apply Fin.ext
  match a with
  | ⟨0, _⟩ => show 1000 * c.val + 1 * q.val = 1000 * c.val + q.val; omega
  | ⟨1, _⟩ => show 0 + 1 * 0 = 0; rfl

/-- Row r's share of graph g in column j, from one block's features `x0`, graph words `x1` and the perceptron's weights. -/
def rowTerm (x0 : Vec Ideal S5000x4 .f32) (x1 : Vec Ideal S5000x1 .i32) (x3 : Vec Ideal S4x64 .bf16) (x4 : Vec Ideal S64 .f32)
    (x5 : Vec Ideal S64x64 .bf16) (x6 : Vec Ideal S64 .f32) (g : Fin 512) (j : Fin 64) (r : Fin 5000) : EReal :=
  share (x1 (ix2 r (0 : Fin 1))) g
    (nodeMlp zeroLit (fun l k => x3 (ix2 l k)) (fun k => x4 (ix1 k)) (fun k j => x5 (ix2 k j)) (fun j => x6 (ix1 j))
      (fun l => x0 (ix2 r l)) j)

/-- One sweep adds the block's 5000 shares. -/
theorem sweep_apply (x0 : Vec Ideal S5000x4 .f32) (x1 : Vec Ideal S5000x1 .i32) (x3 : Vec Ideal S4x64 .bf16) (x4 : Vec Ideal S64 .f32)
    (x5 : Vec Ideal S64x64 .bf16) (x6 : Vec Ideal S64 .f32) (acc : Vec Ideal S512x64 .f32) (g : Fin 512) (j : Fin 64) :
    sweep (F := Ideal) x0 x1 x3 x4 x5 x6 acc (ix2 g j) = acc (ix2 g j) + ∑ r : Fin 5000, rowTerm x0 x1 x3 x4 x5 x6 g j r := by
  unfold sweep
  rw [pay9_apply, pay8_apply, pay7_apply, pay6_eq, pay5_apply, pay4_eq, pay3_apply]
  rw [sum_chunks (rowTerm x0 x1 x3 x4 x5 x6 g j)]
  simp only [rowTerm, ld_feat x0 0 _ 0 rfl, ld_feat x0 1000 _ 1 rfl, ld_feat x0 2000 _ 2 rfl, ld_feat x0 3000 _ 3 rfl,
    ld_feat x0 4000 _ 4 rfl, ld_word x1 0 _ 0 rfl, ld_word x1 1000 _ 1 rfl, ld_word x1 2000 _ 2 rfl, ld_word x1 3000 _ 3 rfl,
    ld_word x1 4000 _ 4 rfl, add_assoc]

/-! ## The carried buffer after each point -/

variable (m : (ℓ : Loc nD τ sig) → Buf (Elt Ideal) ℓ)

/-- Node n's share of graph g in column j, from the arrays the call finds: the graph-word column, the combined
    features, the perceptron's two weight matrices and two bias vectors. -/
def nodeTerm (c : Dev nD) (g : Fin 512) (j : Fin 64) (n : Fin 100000) : EReal :=
  share ((V m c main_v15 : S100000x1.Idx → BitVec 32) (ix2 n (0 : Fin 1))) g
    (nodeMlp zeroLit (fun l k => (V m c main_v21 : S4x64.Idx → EReal) (ix2 l k)) (fun k => (V m c main_arg4 : S64.Idx → EReal) (ix1 k))
      (fun k j => (V m c main_v22 : S64x64.Idx → EReal) (ix2 k j)) (fun j => (V m c main_arg6 : S64.Idx → EReal) (ix1 j))
      (fun l => (V m c main_v14 : S100000x4.Idx → EReal) (ix2 n l)) j)

/-- The shares of block s's 5000 nodes at entry i of the buffer. -/
def blockSum (c : Dev nD) (s : Nat) (i : S512x64.Idx) : EReal := ∑ r : Fin 5000, nodeTerm m c (i 0) (i 1) (nodeAt s r)

/-- The sweep of point t adds block t's shares. -/
theorem step (c : Dev nD) (t : Fin cfg0.N) (acc : Vec Ideal S512x64 .f32) (i : S512x64.Idx) :
    sweep (F := Ideal) (iblk m c 0 t) (iblk m c 1 t) (iblk m c 3 t) (iblk m c 4 t) (iblk m c 5 t) (iblk m c 6 t) acc i
      = acc i + blockSum m c t.val i := by
  obtain ⟨g, j, rfl⟩ : ∃ (g : Fin 512) (j : Fin 64), i = ix2 g j := ⟨i 0, i 1, eq_ix2 i⟩
  rw [sweep_apply]
  refine congrArg (acc (ix2 g j) + ·) (Finset.sum_congr rfl fun r _ => ?_)
  unfold rowTerm nodeTerm
  simp only [feat_apply, word_apply, w1_apply, b1_apply, w2_apply, b2_apply]

/-- After point n the buffer holds the zero literal plus the shares of blocks 0 … n. -/
theorem scratch_fold (c : Dev nD) (n : Nat) (hn : n < cfg0.N) (i : S512x64.Idx) :
    (outsAt0 m c n hn).2 i = zeroLit + ∑ s ∈ Finset.range (n + 1), blockSum m c s i := by
  have hN : cfg0.N = 20 := N_0
  rw [Value.soutsAt0_0_sweep m c n hn]
  have key := Pipeline.accAt_add_apply (N := cfg0.N) (ι := S512x64.Idx) (β := EReal)
    (fun n h => Value.scAt0_0 m c n h (VS0_0.read (Elt Ideal) VS0_0.junk)) (Value.scAt0_0 m c) (fun _ => zeroLit) (blockSum m c) 0 19
    (by
      intro h i
      unfold Value.scAt0_0
      rw [dif_pos (Nat.zero_mod 20), dif_neg (by decide), sout_A, step m c ⟨0, h⟩ _ i]
      obtain ⟨g, j, rfl⟩ : ∃ (g : Fin 512) (j : Fin 64), i = ix2 g j := ⟨i 0, i 1, eq_ix2 i⟩
      rw [pay2_apply])
    (by
      intro n h acc i hpos hle
      have h0 : ¬ n % 20 = 0 := by omega
      unfold Value.scAt0_0
      rw [dif_neg h0]
      by_cases h1 : n % 20 = 19
      · rw [dif_pos h1, sout_C, step m c ⟨n, h⟩ acc i]
      · rw [dif_neg h1, sout_B, step m c ⟨n, h⟩ acc i])
    n (by omega) (by omega) i
  simpa only [Nat.zero_add] using key

/-! ## The result array -/

/-- The result array's entry i = (g, o): the head layer of graph g's pooled sums over all the nodes. -/
def result (c : Dev nD) : S512x128.Idx → EReal := fun i =>
  headOut oneLit (fun k => zeroLit + ∑ n : Fin 100000, nodeTerm m c (i 0) k n)
    ((V m c main_v20 : S512x1.Idx → EReal) (ix2 (i 0) (0 : Fin 1)))
    (fun k o => (V m c main_v23 : S64x128.Idx → EReal) (ix2 k o)) (fun o => (V m c main_arg8 : S128.Idx → EReal) (ix1 o)) (i 1)

/-- The shares of all nodes are the shares of the twenty blocks. -/
theorem all_blocks (c : Dev nD) (g : Fin 512) (k : Fin 64) :
    ∑ s ∈ Finset.range 20, blockSum m c s (ix2 g k) = ∑ n : Fin 100000, nodeTerm m c g k n :=
  (sum_blocks (nodeTerm m c g k)).symm

/-- What the last point leaves in the output block. -/
theorem last_out (c : Dev nD) (h19 : 19 < cfg0.N) : (outsAt0 m c 19 h19).1 = result m c := by
  rw [outsAt0_C m c ⟨19, h19⟩ (by show ¬ (19 : Nat) % 20 = 0; decide) (by show (19 : Nat) % 20 = 19; decide)]
  dsimp only
  rw [out_C]
  funext i
  obtain ⟨g, o, rfl⟩ : ∃ (g : Fin 512) (o : Fin 128), i = ix2 g o := ⟨i 0, i 1, eq_ix2 i⟩
  rw [pay1_apply]
  unfold result
  have hs : (fun k : Fin 64 => sweep (F := Ideal) (iblk m c 0 ⟨19, h19⟩) (iblk m c 1 ⟨19, h19⟩) (iblk m c 3 ⟨19, h19⟩) (iblk m c 4 ⟨19, h19⟩)
        (iblk m c 5 ⟨19, h19⟩) (iblk m c 6 ⟨19, h19⟩) (outsAt0 m c (19 - 1) (Nat.lt_of_le_of_lt (Nat.sub_le _ _) h19)).2 (ix2 g k))
      = fun k => zeroLit + ∑ n : Fin 100000, nodeTerm m c g k n := by
    funext k
    rw [step m c ⟨19, h19⟩ _ (ix2 g k), scratch_fold m c (19 - 1) _ (ix2 g k), add_assoc]
    show zeroLit + (∑ s ∈ Finset.range 19, blockSum m c s (ix2 g k) + blockSum m c 19 (ix2 g k)) = _
    rw [← Finset.sum_range_succ, all_blocks]
  rw [hs]
  simp only [cnt_apply, wl_apply, bl_apply]

/-- The one write-back, at the last point, writes that block; the block is the whole array. -/
theorem flushed_eq (c : Dev nD) (t : Fin cfg0.N) (hf : (cfg0.win 9).flush t = true) :
    (dats m 0 c).flushed 9 t = ((cfg0.win 9).blk t).view.read (Elt Ideal) (result m c) := by
  have hN : cfg0.N = 20 := N_0
  have h19 : t.val = 19 := by have := (flush0_9 t).mp hf; have := t.isLt; omega
  have hi := (index_facts t).2.2.2.2.2.2.2.2.2
  obtain ⟨n, hn⟩ := t
  dsimp only at h19
  subst h19
  rw [Value.flushed9]
  dsimp only
  rw [last_out m c hn]
  have hz' : (fun a => win0_9.index ⟨19, hn⟩ a * main_v24.ty.shape.size a) = fun _ => 0 := funext fun a => by
    match a with
    | ⟨0, _⟩ => show win0_9.index ⟨19, hn⟩ 0 * 512 = 0; rw [hi.1]
    | ⟨1, _⟩ => show win0_9.index ⟨19, hn⟩ 1 * 128 = 0; rw [hi.2]
  exact (Memref.read_access_unit_zero (Elt Ideal) main_v24 hz' (fun a => by rw [congrFun hz' a]; simp) (result m c)).symm

/-- So the result array ends at `result`. -/
theorem final (c : Dev nD) : (dats m 0 c).arrAt 9 cfg0.N = result m c := by
  have hN : cfg0.N = 20 := N_0
  have h19 : 19 < cfg0.N := by omega
  have hi := (index_facts (⟨19, h19⟩ : Fin cfg0.N)).2.2.2.2.2.2.2.2.2
  refine (dats m 0 c).arrAt_eq_of_cover 9 (result m c) (flushed_eq m c) fun i => ⟨⟨19, h19⟩, (flush0_9 _).mpr rfl, ?_⟩
  show i ∈ ((View.whole main_v24).slice (win0_9.rect ⟨19, h19⟩)).set
  rw [View.set_slice_whole, Rect.mem_set_unit]
  intro a
  have h0 : (i 0 : Nat) < 512 := (i 0).isLt
  have h1 : (i 1 : Nat) < 128 := (i 1).isLt
  match a with
  | ⟨0, _⟩ =>
    show win0_9.index ⟨19, h19⟩ 0 * 512 ≤ (i 0 : Nat) ∧ (i 0 : Nat) < win0_9.index ⟨19, h19⟩ 0 * 512 + 512
    rw [hi.1]; omega
  | ⟨1, _⟩ =>
    show win0_9.index ⟨19, h19⟩ 1 * 128 ≤ (i 1 : Nat) ∧ (i 1 : Nat) < win0_9.index ⟨19, h19⟩ 1 * 128 + 128
    rw [hi.2]; omega

/-- The run, read: the result array at `result`, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v24) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.Pooled

end
-- ==== Proof.HostSide.lean ====
/-
  The arrays the pallas_call finds, as functions of @main's arguments.

  Before the call @main computes, on the host: the combined features (each node's own features plus the sum of its
  in-neighbours' — a gather of rows by the edge sources, a scatter-add by the edge targets, an addition); the graph
  words as a column; the per-graph node counts (a scatter-add of ones) as a column; and the three weight matrices
  converted to the narrow float format, which on the extended reals changes nothing. The reference computes the
  combined features and the counts by the very same operations, so these two are matched to the reference's own
  terms without being opened.
-/
import proofs.«424003_j8297876816594_3_alg».proof.Proof.Gen.KernelIdeal.Frame
import proofs.«424003_j8297876816594_3_alg».proof.Proof.Gen.ReferenceIdeal.Read
import Idealize.ShloMosaic.Lib.StableHlo.Run
import Idealize.ShloMosaic.Lib.Pipeline.Value
import Idealize.ShloMosaic.Lib.ValueIdx

noncomputable section

open Idealize.ShloMosaic Idealize.ShloMosaic.TcCoe Idealize.SL.Sem Idealize.ShloMosaic.ValueIdx Idealize.ShloMosaic.StableHlo

namespace Cert.KernelIdeal.HostSide

open Cert.KernelIdeal Cert.KernelIdeal.Gen

variable (m : (ℓ : Loc nD τ sig) → Buf (Elt Ideal) ℓ)

set_option maxHeartbeats 2000000 in
/-- The combined features are the reference's combined features of the same two arguments. -/
theorem comb_eq (c : Dev nD) :
    (V m c main_v14 : S100000x4.Idx → EReal)
      = Cert.ReferenceIdeal.Read.val_main_v14 (F := Ideal) (m ((c : Thread nD τ).loc main_arg0)) (m ((c : Thread nD τ).loc main_arg1)) := by
  dsimp only [V, hostOps0]
  after_results_simp <;> rfl

set_option maxHeartbeats 2000000 in
/-- The graph-word column's row n is the n-th graph word. -/
theorem word_eq (c : Dev nD) (n : Fin 100000) :
    (V m c main_v15 : S100000x1.Idx → BitVec 32) (ix2 n (0 : Fin 1))
      = (m ((c : Thread nD τ).loc main_arg2) : S100000.Idx → BitVec 32) (ix1 n) := by
  have e : (V m c main_v15 : S100000x1.Idx → BitVec 32)
      = shapeCast S100000x1 (m ((c : Thread nD τ).loc main_arg2) : S100000.Idx → BitVec 32) shapeCasts_S100000_S100000x1 := by
    dsimp only [V, hostOps0]
    after_results_simp <;> rfl
  rw [e]
  exact shapeCast_apply _ shapeCasts_S100000_S100000x1 (ix2 n 0) (ix1 n)
    (by rewrite [Shape.rowMajor_val_one, Shape.rowMajor_val_two]; show n.val = n.val * 1 + 0; omega)

set_option maxHeartbeats 2000000 in
/-- The counts column's row g is the reference's count of graph g. -/
theorem counts_eq (c : Dev nD) (g : Fin 512) :
    (V m c main_v20 : S512x1.Idx → EReal) (ix2 g (0 : Fin 1))
      = Cert.ReferenceIdeal.Read.val_main_v30 (F := Ideal) (m ((c : Thread nD τ).loc main_arg2)) (ix1 g) := by
  have e : (V m c main_v20 : S512x1.Idx → EReal)
      = shapeCast S512x1 (Cert.ReferenceIdeal.Read.val_main_v30 (F := Ideal) (m ((c : Thread nD τ).loc main_arg2))) shapeCasts_S512_S512x1 := by
    dsimp only [V, hostOps0]
    after_results_simp <;> rfl
  rw [e]
  exact shapeCast_apply _ shapeCasts_S512_S512x1 (ix2 g 0) (ix1 g)
    (by rewrite [Shape.rowMajor_val_one, Shape.rowMajor_val_two]; show g.val = g.val * 1 + 0; omega)

set_option maxHeartbeats 2000000 in
/-- The converted weight matrices are the weight matrices. -/
theorem w1_eq (c : Dev nD) : (V m c main_v21 : S4x64.Idx → EReal) = (m ((c : Thread nD τ).loc main_arg3) : S4x64.Idx → EReal) := by
  dsimp only [V, hostOps0]
  after_results_simp <;> rfl

set_option maxHeartbeats 2000000 in
theorem w2_eq (c : Dev nD) : (V m c main_v22 : S64x64.Idx → EReal) = (m ((c : Thread nD τ).loc main_arg5) : S64x64.Idx → EReal) := by
  dsimp only [V, hostOps0]
  after_results_simp <;> rfl

set_option maxHeartbeats 2000000 in
theorem wl_eq (c : Dev nD) : (V m c main_v23 : S64x128.Idx → EReal) = (m ((c : Thread nD τ).loc main_arg7) : S64x128.Idx → EReal) := by
  dsimp only [V, hostOps0]
  after_results_simp <;> rfl

end Cert.KernelIdeal.HostSide

end
-- ==== Proof.LibRowGatherScatter.lean ====
/-
  Three host indexing operations read at an index, for any extents: the gather of whole rows of an
  [N × C] table named by an [E × 1] column of row numbers (jnp's table[idx, :]), and the accumulating
  float scatters that add E updates (rows of an [E × C] array, or the entries of an [E] vector) into the
  rows (entries) those row numbers name (jnp's .at[idx].add, segment_sum), at the exact-arithmetic instance
  where the accumulation is a plain sum.
-/
import Idealize.ShloMosaic.PureOps.Ideal
import Idealize.ShloMosaic.PureOps.Contract
import Idealize.ShloMosaic.Lib.ValueIdx

noncomputable section

namespace Idealize.ShloMosaic.RowOps

open Idealize.ShloMosaic Idealize.ShloMosaic.ValueIdx

/-- Row e of the gathered array is the table's row at e's row number, read signed and clamped into the table. -/
theorem gather_rows_apply {α : Type} {N C E w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1) (hss : d.sliceSizes = ![1, C])
    (x : (⟨2, ![N, C]⟩ : Shape).Idx → α) (idx : IVec ⟨2, ![E, 1]⟩ w) (e : Fin E) (k : Fin C) (hN : 0 < N) :
    Host.gather d x idx (ix2 e k) = x (ix2 (⟨min (idx (ix2 e (0 : Fin 1))).toInt.toNat (N - 1), by omega⟩ : Fin N) k) := by
  unfold Host.gather
  congr 1
  funext a
  -- the result's one batch axis is axis 0 (axis 1 is its offset axis); no operand axis is a batching axis
  have hbd : d.batchDims = [0] := by
    show (⟨2, ![E, C]⟩ : Shape).kept d.offsetDims = [0]
    rw [hoff]; rfl
  have hob0 : ∀ a : Fin 2, a ∉ d.operandBatchingDims := fun a => by rw [hob]; exact List.not_mem_nil
  -- every entry of a one-element list of axes is that axis, whatever position it is read at
  have hall0 : ∀ X ∈ d.batchDims, X = 0 := fun X hX => by rw [hbd] at hX; exact List.mem_singleton.1 hX
  have hall1 : ∀ X ∈ d.offsetDims, X = 1 := fun X hX => by rw [hoff] at hX; exact List.mem_singleton.1 hX
  have coord0 : ∀ X : Fin 2, X = 0 → ((ix2 e k) X).val = e.val := fun X h => by subst h; rfl
  have coord1 : ∀ X : Fin 2, X = 1 → ((ix2 e k) X).val = k.val := fun X h => by subst h; rfl
  match a with
  | ⟨0, _⟩ =>
    -- operand axis 0: collapsed (slice size 1, no offset coordinate) and start-indexed: the clamped row number
    apply Fin.ext
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e k) idx 0 + d.batchCoord (ix2 e k) 0 + d.offCoord (ix2 e k) 0 = min (idx (ix2 e 0)).toInt.toNat (N - 1)
    rw [GatherDims.batchCoord_eq_zero _ _ _ (hob0 0), GatherDims.offCoord_eq_zero _ _ _ hk]
    simp only [Nat.add_zero]
    unfold GatherDims.start
    rw [dif_pos hm]
    show min (idx _).toInt.toNat (N - d.sliceSizes 0) = _
    rw [hsl]
    congr 3
    congr 1
    -- the start index is read at (e, 0): e from the result's batch coordinate, 0 the one component of the index vector
    funext b
    match b with
    | ⟨0, _⟩ =>
      unfold GatherDims.siIdx
      rw [dif_neg (by rw [hivd]; simp)]
      unfold GatherDims.siCoord
      apply Fin.ext
      simp only [Fin.val_cast]
      exact coord0 _ (hall0 _ (List.getElem_mem _))
    | ⟨1, _⟩ =>
      unfold GatherDims.siIdx
      rw [dif_pos (by rw [hivd])]
      apply Fin.ext
      show List.idxOf (0 : Fin 2) d.startIndexMap = 0
      rw [hsim]; simp
  | ⟨1, _⟩ =>
    -- operand axis 1: not start-indexed (start 0), kept whole: the offset coordinate is the result's coordinate on axis 1
    apply Fin.ext
    have hk : (1 : Fin 2) ∈ d.sKept := by rw [GatherDims.mem_sKept, hcoll]; exact ⟨by simp, hob0 1⟩
    have hm : (1 : Fin 2) ∉ d.startIndexMap := by rw [hsim]; simp
    show d.start (ix2 e k) idx 1 + d.batchCoord (ix2 e k) 1 + d.offCoord (ix2 e k) 1 = k.val
    rw [GatherDims.batchCoord_eq_zero _ _ _ (hob0 1)]
    unfold GatherDims.start GatherDims.offCoord
    rw [dif_neg hm, dif_pos hk]
    simp only [Nat.add_zero, Nat.zero_add]
    exact coord1 _ (hall1 _ (List.getElem_mem _))

/-- Where one update lands: update (e, k') lands on (i, k) exactly when e's row number, read signed, is i and k' is k.
    On axis 0 (inserted: no window coordinate) the landing coordinate is the row number itself, not clamped, so a
    negative one or one past the table lands nowhere; on axis 1 (start 0) it is the update's own coordinate k', always
    inside the row. -/
private theorem resultIdx_rows_iff {N C E w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1) (idx : IVec ⟨2, ![E, 1]⟩ w) (e : Fin E) (k' : Fin C) (i : Fin N) (k : Fin C) :
    d.resultIdx? (ix2 e k') idx = some (ix2 i k) ↔ (idx (ix2 e (0 : Fin 1))).toInt = (i.val : Int) ∧ k' = k := by
  -- the updates' one scatter axis is axis 0 (axis 1 is their window axis); the operand's one window axis is axis 1
  have hus : d.uScatter = [0] := by
    show (⟨2, ![E, C]⟩ : Shape).kept d.updateWindowDims = [0]
    rw [huw]; rfl
  have hsk : d.sKept = [1] := by
    show (⟨2, ![N, C]⟩ : Shape).kept d.insertedWindowDims = [1]
    rw [hiw]; rfl
  have hall0 : ∀ X ∈ d.uScatter, X = 0 := fun X hX => by rw [hus] at hX; exact List.mem_singleton.1 hX
  have hall1 : ∀ X ∈ d.updateWindowDims, X = 1 := fun X hX => by rw [huw] at hX; exact List.mem_singleton.1 hX
  have coord0 : ∀ X : Fin 2, X = 0 → ((ix2 e k') X).val = e.val := fun X h => by subst h; rfl
  have coord1 : ∀ X : Fin 2, X = 1 → ((ix2 e k') X).val = k'.val := fun X h => by subst h; rfl
  -- the four ingredients of the landing index: start and window coordinate on each operand axis
  have hst0 : d.start (ix2 e k') idx 0 = (idx (ix2 e (0 : Fin 1))).toInt := by
    unfold ScatterDims.start
    rw [dif_pos (by rw [hsd]; exact List.mem_singleton.mpr rfl)]
    congr 2
    funext b
    match b with
    | ⟨0, _⟩ =>
      unfold ScatterDims.siIdx
      rw [dif_neg (by rw [hivd]; simp)]
      unfold ScatterDims.siCoord
      apply Fin.ext
      simp only [Fin.val_cast]
      exact coord0 _ (hall0 _ (List.getElem_mem _))
    | ⟨1, _⟩ =>
      unfold ScatterDims.siIdx
      rw [dif_pos (by rw [hivd])]
      apply Fin.ext
      show List.idxOf (0 : Fin 2) d.scatterDimsToOperandDims = 0
      rw [hsd]; simp
  have hw0 : d.window (ix2 e k') 0 = 0 := by
    unfold ScatterDims.window; rw [dif_neg (by rw [hsk]; simp)]
  have hst1 : d.start (ix2 e k') idx 1 = 0 := by
    unfold ScatterDims.start; rw [dif_neg (by rw [hsd]; simp)]
  have hw1 : d.window (ix2 e k') 1 = k'.val := by
    unfold ScatterDims.window; rw [dif_pos (by rw [hsk]; simp)]
    exact coord1 _ (hall1 _ (List.getElem_mem _))
  unfold ScatterDims.resultIdx?
  split
  · -- the landing index is inside the operand: compare it with (i, k) coordinate by coordinate
    rename_i h
    rw [Option.some.injEq]
    constructor
    · intro hf
      have h0 : (d.start (ix2 e k') idx 0 + d.window (ix2 e k') 0).toNat = i.val := congrArg (fun f => (f 0).val) hf
      have h1 : (d.start (ix2 e k') idx 1 + d.window (ix2 e k') 1).toNat = k.val := congrArg (fun f => (f 1).val) hf
      have hh := (h 0).1
      rw [hst0, hw0] at h0 hh
      rw [hst1, hw1] at h1
      exact ⟨by omega, Fin.ext (by omega)⟩
    · rintro ⟨hi, rfl⟩
      funext a
      match a with
      | ⟨0, _⟩ =>
        apply Fin.ext
        show (d.start (ix2 e k') idx 0 + d.window (ix2 e k') 0).toNat = i.val
        rw [hst0, hw0, hi]; omega
      | ⟨1, _⟩ =>
        apply Fin.ext
        show (d.start (ix2 e k') idx 1 + d.window (ix2 e k') 1).toNat = k'.val
        rw [hst1, hw1]; omega
  · -- the landing index leaves the operand: then the row number is no row of the table, i least of all
    rename_i h
    constructor
    · intro hf; exact absurd hf (by simp)
    · rintro ⟨hi, rfl⟩
      exfalso; apply h
      intro a
      match a with
      | ⟨0, _⟩ =>
        show 0 ≤ d.start (ix2 e k') idx 0 + d.window (ix2 e k') 0 ∧ d.start (ix2 e k') idx 0 + d.window (ix2 e k') 0 < (N : Int)
        rw [hst0, hw0, hi]; have := i.isLt; omega
      | ⟨1, _⟩ =>
        show 0 ≤ d.start (ix2 e k') idx 1 + d.window (ix2 e k') 1 ∧ d.start (ix2 e k') idx 1 + d.window (ix2 e k') 1 < (C : Int)
        rw [hst1, hw1]; have := k'.isLt; omega

/-- Entry (i, k) after the scatter: what was there plus the updates' entries (e, k) over the e whose row number is i. -/
theorem scatterAdd_rows_apply {N C E w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![E, 1]⟩ w) (upd : (⟨2, ![E, C]⟩ : Shape).Idx → EReal)
    (i : Fin N) (k : Fin C) :
    Ideal.hostScatterAdd d x idx upd (ix2 i k)
      = x (ix2 i k) + ∑ e : Fin E, if (idx (ix2 e (0 : Fin 1))).toInt = (i.val : Int) then upd (ix2 e k) else 0 := by
  unfold Ideal.hostScatterAdd
  congr 1
  -- the sum over the updates that land on (i, k), as a double sum over (e, k') of the updates guarded by "lands on (i, k)"
  rw [Finset.sum_filter, sum_idx2]
  refine Finset.sum_congr rfl fun e _ => ?_
  by_cases he : (idx (ix2 e (0 : Fin 1))).toInt = (i.val : Int)
  · -- row e is aimed at row i: of its C entries exactly the one in column k lands on (i, k)
    rw [if_pos he, Finset.sum_eq_single k]
    · rw [if_pos ((resultIdx_rows_iff d huw hiw hsd hivd idx e k i k).2 ⟨he, rfl⟩)]
    · intro k' _ hk'
      rw [if_neg fun h => hk' ((resultIdx_rows_iff d huw hiw hsd hivd idx e k' i k).1 h).2]
    · intro h; exact absurd (Finset.mem_univ k) h
  · -- row e is aimed elsewhere (or nowhere): none of its entries lands on (i, k)
    rw [if_neg he]
    refine Finset.sum_eq_zero fun k' _ => ?_
    rw [if_neg fun h => he ((resultIdx_rows_iff d huw hiw hsd hivd idx e k' i k).1 h).1]

/-- A sum over a rank-1 index set is the sum over its one coordinate. -/
private theorem sum_idx1 {M : Type*} [AddCommMonoid M] {n : Nat} (f : (⟨1, ![n]⟩ : Shape).Idx → M) :
    ∑ j, f j = ∑ a : Fin n, f (ix1 a) := by
  let φ : (⟨1, ![n]⟩ : Shape).Idx ≃ Fin n :=
    { toFun := fun j => j 0, invFun := fun a => ix1 a, left_inv := fun j => (eq_ix1 j).symm, right_inv := fun _ => rfl }
  rw [← Equiv.sum_comp φ.symm f]
  rfl

/-- Where one update of a vector lands: update e lands on entry i exactly when e's row number, read signed, is i (the
    operand's one axis is inserted: the landing coordinate is the row number itself, not clamped). -/
private theorem resultIdx_vec_iff {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1) (idx : IVec ⟨2, ![E, 1]⟩ w) (e : Fin E) (i : Fin N) :
    d.resultIdx? (ix1 e) idx = some (ix1 i) ↔ (idx (ix2 e (0 : Fin 1))).toInt = (i.val : Int) := by
  -- the operand has no window axis
  have hsk : d.sKept = [] := by
    show (⟨1, ![N]⟩ : Shape).kept d.insertedWindowDims = []
    rw [hiw]; rfl
  have coord0 : ∀ X : Fin 1, ((ix1 e) X).val = e.val := fun X => by
    obtain rfl : X = 0 := Subsingleton.elim _ _
    rfl
  have hst0 : d.start (ix1 e) idx 0 = (idx (ix2 e (0 : Fin 1))).toInt := by
    unfold ScatterDims.start
    rw [dif_pos (by rw [hsd]; exact List.mem_singleton.mpr rfl)]
    congr 2
    funext b
    match b with
    | ⟨0, _⟩ =>
      unfold ScatterDims.siIdx
      rw [dif_neg (by rw [hivd]; simp)]
      unfold ScatterDims.siCoord
      apply Fin.ext
      simp only [Fin.val_cast]
      exact coord0 _
    | ⟨1, _⟩ =>
      unfold ScatterDims.siIdx
      rw [dif_pos (by rw [hivd])]
      apply Fin.ext
      show List.idxOf (0 : Fin 1) d.scatterDimsToOperandDims = 0
      rw [hsd]; simp
  have hw0 : d.window (ix1 e) 0 = 0 := by
    unfold ScatterDims.window; rw [dif_neg (by rw [hsk]; simp)]
  have hax : ∀ a : Fin 1, a = 0 := fun a => Subsingleton.elim _ _
  unfold ScatterDims.resultIdx?
  split
  · rename_i h
    rw [Option.some.injEq]
    constructor
    · intro hf
      have h0 : (d.start (ix1 e) idx 0 + d.window (ix1 e) 0).toNat = i.val := congrArg (fun f => (f 0).val) hf
      have hh := (h 0).1
      rw [hst0, hw0] at h0 hh
      omega
    · intro hi
      funext a
      obtain rfl := hax a
      apply Fin.ext
      show (d.start (ix1 e) idx 0 + d.window (ix1 e) 0).toNat = i.val
      rw [hst0, hw0, hi]; omega
  · rename_i h
    constructor
    · intro hf; exact absurd hf (by simp)
    · intro hi
      exfalso; apply h
      intro a
      obtain rfl := hax a
      show 0 ≤ d.start (ix1 e) idx 0 + d.window (ix1 e) 0 ∧ d.start (ix1 e) idx 0 + d.window (ix1 e) 0 < (N : Int)
      rw [hst0, hw0, hi]; have := i.isLt; omega

/-- Entry i after the scatter of a vector: what was there plus the updates over the e whose row number is i. -/
theorem scatterAdd_vec_apply {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1)
    (x : (⟨1, ![N]⟩ : Shape).Idx → EReal) (idx : IVec ⟨2, ![E, 1]⟩ w) (upd : (⟨1, ![E]⟩ : Shape).Idx → EReal) (i : Fin N) :
    Ideal.hostScatterAdd d x idx upd (ix1 i)
      = x (ix1 i) + ∑ e : Fin E, if (idx (ix2 e (0 : Fin 1))).toInt = (i.val : Int) then upd (ix1 e) else 0 := by
  unfold Ideal.hostScatterAdd
  congr 1
  rw [Finset.sum_filter, sum_idx1]
  refine Finset.sum_congr rfl fun e _ => ?_
  by_cases he : (idx (ix2 e (0 : Fin 1))).toInt = (i.val : Int)
  · rw [if_pos he, if_pos ((resultIdx_vec_iff d huw hiw hsd hivd idx e i).2 he)]
  · rw [if_neg he, if_neg fun h => he ((resultIdx_vec_iff d huw hiw hsd hivd idx e i).1 h)]

end Idealize.ShloMosaic.RowOps

end
-- ==== Proof.RefValue.lean ====
/-
  The reference program's result read at one index, on the extended reals.

  Entry (g, o) of the result is the last linear layer applied to the pooled sums of graph g, divided by the larger of the
  graph's node count and the one literal. The pooled sum of graph g at unit k is the zero literal the accumulation starts
  from plus, over all 100000 nodes n, node n's share: its perceptron output at unit k when the node's graph word, read
  signed, is g, and nothing otherwise. The perceptron reads the node's four combined features (own features plus the sum
  of the in-neighbours'); those, and the node counts, stay as the program names them.

  The steps, innermost first: the first layer before the rectifier (a contraction over the 4 features plus a bias
  broadcast along rows); the perceptron's output (rectifier against the zero literal, a contraction over the 64 hidden
  units, a bias); the accumulating scatter of the 100000 output rows into the 512 graph rows, read at an entry; the
  divisor (a maximum broadcast along columns); and the last layer (a quotient, a contraction over 64 units, a bias).
  Each contraction's and each broadcast's index function is identified with the plain coordinates by a two-case check.
-/
import proofs.«424003_j8297876816594_3_alg».proof.Proof.Gen.ReferenceIdeal.Read
import proofs.«424003_j8297876816594_3_alg».proof.Proof.Spec
import proofs.«424003_j8297876816594_3_alg».proof.Proof.LibRowGatherScatter
import Idealize.ShloMosaic.Lib.ValueIdx

noncomputable section
namespace Cert.ReferenceIdeal.RefValue
open Idealize.ShloMosaic Idealize.ShloMosaic.ValueIdx Cert.ReferenceIdeal Cert.ReferenceIdeal.Gen Cert.GraphPool

/-- The first layer before the rectifier, at node n and hidden unit k: the node's four combined features against
    column k of the first weight matrix, plus the k-th bias. -/
theorem hidden_apply (x0 : (⟨S100000x4, .f32⟩ : BufTy).Contents (Elt Ideal)) (x1 : (⟨S2x6400000, .i32⟩ : BufTy).Contents (Elt Ideal))
    (x3 : (⟨S4x64, .f32⟩ : BufTy).Contents (Elt Ideal)) (x4 : (⟨S64, .f32⟩ : BufTy).Contents (Elt Ideal))
    (n : Fin 100000) (k : Fin 64) :
    Read.val_main_v18 (F := Ideal) x0 x1 x3 x4 (ix2 n k)
      = (∑ l : Fin 4, Read.val_main_v14 (F := Ideal) x0 x1 (ix2 n l) * x3 (ix2 l k)) + x4 (ix1 k) := by
  have el : ∀ l : Fin 4, Read.lidx_main_v15 (ix2 n k) l = ix2 n l := fun l => funext fun a => Fin.ext (by
    match a with | ⟨0, _⟩ => rfl | ⟨1, _⟩ => rfl)
  have er : ∀ l : Fin 4, Read.ridx_main_v15 (ix2 n k) l = ix2 l k := fun l => funext fun a => Fin.ext (by
    match a with | ⟨0, _⟩ => rfl | ⟨1, _⟩ => rfl)
  have eb : Read.idx_main_v16 (Read.idx_main_v17 (ix2 n k)) = ix1 k := funext fun a => Fin.ext (by
    match a with | ⟨0, _⟩ => rfl)
  rw [Read.val_main_v18_apply, Read.val_main_v15_apply, Read.val_main_v17_apply, Read.val_main_v16_apply, eb,
    Ideal.addf_def]
  exact congrArg₂ (· + ·) (Finset.sum_congr rfl fun l _ => by rw [el, er]) rfl

/-- The perceptron's output at node n and unit j is `nodeMlp` of the node's combined features. -/
theorem mlp_apply (x0 : (⟨S100000x4, .f32⟩ : BufTy).Contents (Elt Ideal)) (x1 : (⟨S2x6400000, .i32⟩ : BufTy).Contents (Elt Ideal))
    (x3 : (⟨S4x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal))
    (n : Fin 100000) (j : Fin 64) :
    Read.val_main_v23 (F := Ideal) x0 x1 x3 x4 x5 x6 (ix2 n j)
      = nodeMlp (Ideal.ofBits .f32 0x00000000#32) (fun l k => x3 (ix2 l k)) (fun k => x4 (ix1 k)) (fun k j => x5 (ix2 k j))
          (fun j => x6 (ix1 j)) (fun l => Read.val_main_v14 (F := Ideal) x0 x1 (ix2 n l)) j := by
  have el : ∀ k : Fin 64, Read.lidx_main_v20 (ix2 n j) k = ix2 n k := fun k => funext fun a => Fin.ext (by
    match a with | ⟨0, _⟩ => rfl | ⟨1, _⟩ => rfl)
  have er : ∀ k : Fin 64, Read.ridx_main_v20 (ix2 n j) k = ix2 k j := fun k => funext fun a => Fin.ext (by
    match a with | ⟨0, _⟩ => rfl | ⟨1, _⟩ => rfl)
  have eb : Read.idx_main_v21 (Read.idx_main_v22 (ix2 n j)) = ix1 j := funext fun a => Fin.ext (by
    match a with | ⟨0, _⟩ => rfl)
  rw [Read.val_main_v23_apply, Read.val_main_v20_apply, Read.val_main_v22_apply, Read.val_main_v21_apply, eb,
    Ideal.addf_def]
  unfold nodeMlp
  refine congrArg₂ (· + ·) (Finset.sum_congr rfl fun k _ => ?_) rfl
  rw [el, er, Read.val_main_v19_apply, hidden_apply, Read.val_main_call0_v0_apply, Read.val_main_call0_cst_apply,
    Ideal.maximumf_def, Ideal.ofBits_def]

/-- The pooled sums at graph g and unit k: the zero literal the scatter starts from, plus every node's share of its
    perceptron output. The scatter lands row n on the row its graph word names, read signed. -/
theorem sums_apply (x0 : (⟨S100000x4, .f32⟩ : BufTy).Contents (Elt Ideal)) (x1 : (⟨S2x6400000, .i32⟩ : BufTy).Contents (Elt Ideal))
    (x2 : (⟨S100000, .i32⟩ : BufTy).Contents (Elt Ideal)) (x3 : (⟨S4x64, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) (g : Fin 512) (k : Fin 64) :
    Read.val_main_v26 (F := Ideal) x0 x1 x2 x3 x4 x5 x6 (ix2 g k)
      = Ideal.ofBits .f32 0x00000000#32 + ∑ n : Fin 100000, share (x2 (ix1 n)) g
          (Read.val_main_v23 (F := Ideal) x0 x1 x3 x4 x5 x6 (ix2 n k)) := by
  have ec : ∀ n : Fin 100000, Read.idx_main_v25 (ix2 n (0 : Fin 1)) = ix1 n := fun n => funext fun a => Fin.ext (by
    match a with | ⟨0, _⟩ => rfl)
  unfold Read.val_main_v26
  generalize Read.val_main_v23 (F := Ideal) x0 x1 x3 x4 x5 x6 = upd
  show Ideal.hostScatterAdd scatter_S512x64_S100000x1_S100000x64_1_0_0_1 (Read.val_main_v24 (F := Ideal))
    (Read.val_main_v25 (F := Ideal) x2) upd (ix2 g k) = _
  rw [RowOps.scatterAdd_rows_apply scatter_S512x64_S100000x1_S100000x64_1_0_0_1 rfl rfl rfl rfl,
    Read.val_main_v24_apply, Read.val_main_cst_1_apply, Ideal.ofBits_def]
  refine congrArg₂ (· + ·) rfl (Finset.sum_congr rfl fun n _ => ?_)
  rw [Read.val_main_v25_apply, ec]
  rfl

/-- The divisor at graph g, whatever the column: the larger of the graph's node count and the one literal. -/
theorem den_apply (x2 : (⟨S100000, .i32⟩ : BufTy).Contents (Elt Ideal)) (g : Fin 512) (k : Fin 64) :
    Read.val_main_v34 (F := Ideal) x2 (ix2 g k)
      = max (Read.val_main_v30 (F := Ideal) x2 (ix1 g)) (Ideal.ofBits .f32 0x3F800000#32) := by
  have e : Read.idx_main_v33 (Read.idx_main_v34 (ix2 g k)) = ix1 g := funext fun a => Fin.ext (by
    match a with | ⟨0, _⟩ => rfl)
  rw [Read.val_main_v34_apply, Read.val_main_v33_apply, e, Read.val_main_v32_apply, Read.val_main_v31_apply,
    Read.val_main_cst_4_apply, Ideal.maximumf_def, Ideal.ofBits_def]

/-- The reference's result at graph g and output o: the last layer applied to the graph's pooled sums (the zero literal
    plus every node's share of its perceptron output) divided by the larger of its node count and the one literal. -/
theorem ref_apply (x0 : (⟨S100000x4, .f32⟩ : BufTy).Contents (Elt Ideal)) (x1 : (⟨S2x6400000, .i32⟩ : BufTy).Contents (Elt Ideal))
    (x2 : (⟨S100000, .i32⟩ : BufTy).Contents (Elt Ideal)) (x3 : (⟨S4x64, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) (x7 : (⟨S64x128, .f32⟩ : BufTy).Contents (Elt Ideal))
    (x8 : (⟨S128, .f32⟩ : BufTy).Contents (Elt Ideal)) (g : Fin 512) (o : Fin 128) :
    Read.val_main_v39 (F := Ideal) x0 x1 x2 x3 x4 x5 x6 x7 x8 (ix2 g o)
      = headOut (Ideal.ofBits .f32 0x3F800000#32)
          (fun k => Ideal.ofBits .f32 0x00000000#32 + ∑ n : Fin 100000, share (x2 (ix1 n)) g
            (nodeMlp (Ideal.ofBits .f32 0x00000000#32) (fun l k => x3 (ix2 l k)) (fun k => x4 (ix1 k)) (fun k j => x5 (ix2 k j))
              (fun j => x6 (ix1 j)) (fun l => Read.val_main_v14 (F := Ideal) x0 x1 (ix2 n l)) k))
          (Read.val_main_v30 (F := Ideal) x2 (ix1 g)) (fun k o => x7 (ix2 k o)) (fun o => x8 (ix1 o)) o := by
  have el : ∀ k : Fin 64, Read.lidx_main_v36 (ix2 g o) k = ix2 g k := fun k => funext fun a => Fin.ext (by
    match a with | ⟨0, _⟩ => rfl | ⟨1, _⟩ => rfl)
  have er : ∀ k : Fin 64, Read.ridx_main_v36 (ix2 g o) k = ix2 k o := fun k => funext fun a => Fin.ext (by
    match a with | ⟨0, _⟩ => rfl | ⟨1, _⟩ => rfl)
  have eb : Read.idx_main_v37 (Read.idx_main_v38 (ix2 g o)) = ix1 o := funext fun a => Fin.ext (by
    match a with | ⟨0, _⟩ => rfl)
  rw [Read.val_main_v39_apply, Read.val_main_v36_apply, Read.val_main_v38_apply, Read.val_main_v37_apply, eb,
    Ideal.addf_def]
  unfold headOut
  refine congrArg₂ (· + ·) (Finset.sum_congr rfl fun k _ => ?_) rfl
  rw [el, er, Read.val_main_v35_apply, Ideal.hostDivf_def, sums_apply, den_apply]
  simp only [mlp_apply]

end Cert.ReferenceIdeal.RefValue
end
-- ==== Proof.lean ====
/-
  The certificate of the graph network: a Pallas kernel that, over a grid of 20 blocks of 5000 nodes, runs a two-layer
  perceptron on every node's combined features, pools the outputs per graph by a one-hot matrix product accumulated in
  a buffer carried across the grid, and at the last block divides by the graph sizes and applies a final linear layer —
  against the reference that pools by a scatter-add over all 100000 nodes at once.

  On the extended reals the two agree for every input, finite or not. The host operations before the kernel (the
  neighbour aggregation, the graph sizes) are the reference's own, operation for operation. The perceptron is the same
  sums of products. The one-hot product contributes, for graph g, the node's output when the node's graph word read
  signed is g and zero otherwise (one times x is x, zero times x is zero for every extended real x), which is what the
  scatter-add adds; and the kernel's order of accumulation — chunk by chunk, block by block, from the same zero
  literal the scatter starts from — is a regrouping of one finite sum in a commutative monoid. No finiteness of the
  inputs is used.

  The three frames: the kernel's two are generated whole; the reference's is its generated run with the result
  dropped. The idealization rewrote nothing, so `preserves` is trivial.
-/
import proofs.«424003_j8297876816594_3_alg».proof.Defs
import proofs.«424003_j8297876816594_3_alg».proof.Proof.Gen.Kernel
import proofs.«424003_j8297876816594_3_alg».proof.Proof.Gen.Kernel.Skeleton
import proofs.«424003_j8297876816594_3_alg».proof.Proof.Gen.Kernel.Launch
import proofs.«424003_j8297876816594_3_alg».proof.Proof.Gen.Kernel.Points
import proofs.«424003_j8297876816594_3_alg».proof.Proof.Gen.Kernel.Frame
import proofs.«424003_j8297876816594_3_alg».proof.Proof.Gen.KernelIdeal
import proofs.«424003_j8297876816594_3_alg».proof.Proof.Gen.KernelIdeal.Skeleton
import proofs.«424003_j8297876816594_3_alg».proof.Proof.Gen.KernelIdeal.Launch
import proofs.«424003_j8297876816594_3_alg».proof.Proof.Gen.KernelIdeal.Points
import proofs.«424003_j8297876816594_3_alg».proof.Proof.Gen.KernelIdeal.Frame
import proofs.«424003_j8297876816594_3_alg».proof.Proof.Gen.ReferenceIdeal
import proofs.«424003_j8297876816594_3_alg».proof.Proof.Gen.Pre_finite_inputs
import proofs.«424003_j8297876816594_3_alg».proof.Proof.Gen.KernelIdeal.Value
import proofs.«424003_j8297876816594_3_alg».proof.Proof.Gen.ReferenceIdeal.Run
import proofs.«424003_j8297876816594_3_alg».proof.Proof.Gen.ReferenceIdeal.Read
import proofs.«424003_j8297876816594_3_alg».proof.Proof.Pooled
import proofs.«424003_j8297876816594_3_alg».proof.Proof.HostSide
import proofs.«424003_j8297876816594_3_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The head layer is a function of its five ingredients. -/
theorem headOut_congr {one one' : EReal} {s s' : Fin 64 → EReal} {cnt cnt' : EReal} {wl wl' : Fin 64 → Fin 128 → EReal}
    {bl bl' : Fin 128 → EReal} (h1 : one = one') (hs : s = s') (hc : cnt = cnt') (hw : wl = wl') (hb : bl = bl') (o : Fin 128) :
    Cert.GraphPool.headOut one s cnt wl bl o = Cert.GraphPool.headOut one' s' cnt' wl' bl' o := by
  subst h1 hs hc hw hb; rfl

/-- The kernel's result array at entry (g, o), its two coordinates read. -/
theorem result_apply (m : (ℓ : Loc Cert.KernelIdeal.nD Cert.KernelIdeal.τ Cert.KernelIdeal.sig) → Buf (Elt Ideal) ℓ)
    (c : Dev Cert.KernelIdeal.nD) (g : Fin 512) (o : Fin 128) :
    Cert.KernelIdeal.Pooled.result m c (ix2 g o)
      = Cert.GraphPool.headOut Cert.KernelIdeal.Pooled.oneLit
          (fun k => Cert.KernelIdeal.Pooled.zeroLit + ∑ n : Fin 100000, Cert.KernelIdeal.Pooled.nodeTerm m c g k n)
          ((Cert.KernelIdeal.Gen.V m c Cert.KernelIdeal.main_v20 : Cert.KernelIdeal.S512x1.Idx → EReal) (ix2 g (0 : Fin 1)))
          (fun k o => (Cert.KernelIdeal.Gen.V m c Cert.KernelIdeal.main_v23 : Cert.KernelIdeal.S64x128.Idx → EReal) (ix2 k o))
          (fun o => (Cert.KernelIdeal.Gen.V m c Cert.KernelIdeal.main_arg8 : Cert.KernelIdeal.S128.Idx → EReal) (ix1 o)) o := rfl

/-- The kernel's result array is the reference's result of the same nine arguments: entry (g, o) of both is the head
    layer of graph g's pooled sums, the kernel's arrays being the reference's terms (combined features, counts) or the
    arguments themselves (graph words, weights, biases). -/
theorem result_is_ref (m : (ℓ : Loc Cert.KernelIdeal.nD Cert.KernelIdeal.τ Cert.KernelIdeal.sig) → Buf (Elt Ideal) ℓ)
    (c : Dev Cert.KernelIdeal.nD) :
    Cert.KernelIdeal.Pooled.result m c
      = Cert.ReferenceIdeal.Read.val_main_v39 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8)) := by
  funext i
  obtain ⟨g, o, rfl⟩ : ∃ (g : Fin 512) (o : Fin 128), i = ix2 g o := ⟨i 0, i 1, eq_ix2 i⟩
  rw [result_apply, Cert.ReferenceIdeal.RefValue.ref_apply]
  refine headOut_congr rfl ?_ (Cert.KernelIdeal.HostSide.counts_eq m c g) ?_ ?_ o
  · funext k
    refine congrArg (Cert.KernelIdeal.Pooled.zeroLit + ·) (Finset.sum_congr rfl fun n _ => ?_)
    unfold Cert.KernelIdeal.Pooled.nodeTerm
    rw [Cert.KernelIdeal.HostSide.word_eq m c n, Cert.KernelIdeal.HostSide.comb_eq m c, Cert.KernelIdeal.HostSide.w1_eq m c,
      Cert.KernelIdeal.HostSide.w2_eq m c, Cert.KernelIdeal.Gen.V_main_arg4 m c, Cert.KernelIdeal.Gen.V_main_arg6 m c]
  · funext k o
    rw [Cert.KernelIdeal.HostSide.wl_eq m c]
  · funext o
    rw [Cert.KernelIdeal.Gen.V_main_arg8 m c]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs, from memories agreeing on the arguments, end at the one array: the kernel's run leaves its result
    at the head layer of the pooled sums, which is the reference's result of the same arguments. -/
theorem algebraic : Cert.algebraic_KernelIdeal_ReferenceIdeal := by
  intro m ρ m' ρ' _ hagree
  refine ⟨fun c => Cert.KernelIdeal.Pooled.result m c, Cert.KernelIdeal.Pooled.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2]
  exact (result_is_ref m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
